-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S2x4096x512 .f32) (main_arg1 : FVec F S1536x512 .f32) (main_arg2 : FVec F S512x512 .f32) (main_arg3 : FVec F S512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S512x1536 : Shape := ⟨2, ![512, 1536]⟩
abbrev S2x8x4096x64 : Shape := ⟨4, ![2, 8, 4096, 64]⟩
abbrev S1x1024x512 : Shape := ⟨3, ![1, 1024, 512]⟩
abbrev S1x8x1024x64 : Shape := ⟨4, ![1, 8, 1024, 64]⟩
abbrev S1024x512 : Shape := ⟨2, ![1024, 512]⟩
abbrev S1024x1536 : Shape := ⟨2, ![1024, 1536]⟩
abbrev S1024x64 : Shape := ⟨2, ![1024, 64]⟩
abbrev S1x1x1024x64 : Shape := ⟨4, ![1, 1, 1024, 64]⟩
abbrev S16x4096x64 : Shape := ⟨3, ![16, 4096, 64]⟩
abbrev S1x256x64 : Shape := ⟨3, ![1, 256, 64]⟩
abbrev S1x4096x64 : Shape := ⟨3, ![1, 4096, 64]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S1x512 : Shape := ⟨2, ![1, 512]⟩
abbrev S64x512 : Shape := ⟨2, ![64, 512]⟩

abbrev nBuf : Space → Nat
  | .hbm => 18
  | .vmem => 23
  | .smem => 0
  | _ => 0

abbrev bufTy : (tb : Table) → Fin (tcTables nBuf tb) → BufTy
  | .hbm, ⟨0, _⟩ => ⟨S2x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S1536x512, .bf16⟩
  | .hbm, ⟨5, _⟩ => ⟨S512x1536, .bf16⟩
  | .hbm, ⟨6, _⟩ => ⟨S512x512, .bf16⟩
  | .hbm, ⟨7, _⟩ => ⟨S512x512, .bf16⟩
  | .hbm, ⟨8, _⟩ => ⟨S2x8x4096x64, .bf16⟩
  | .hbm, ⟨9, _⟩ => ⟨S2x8x4096x64, .bf16⟩
  | .hbm, ⟨10, _⟩ => ⟨S2x8x4096x64, .bf16⟩
  | .hbm, ⟨11, _⟩ => ⟨S16x4096x64, .bf16⟩
  | .hbm, ⟨12, _⟩ => ⟨S16x4096x64, .bf16⟩
  | .hbm, ⟨13, _⟩ => ⟨S16x4096x64, .bf16⟩
  | .hbm, ⟨14, _⟩ => ⟨S16x4096x64, .bf16⟩
  | .hbm, ⟨15, _⟩ => ⟨S2x8x4096x64, .bf16⟩
  | .hbm, ⟨16, _⟩ => ⟨S1x512, .f32⟩
  | .hbm, ⟨17, _⟩ => ⟨S2x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S512x1536, .bf16⟩
  | .local _ .vmem, ⟨3, _⟩ => ⟨S1x8x1024x64, .bf16⟩
  | .local _ .vmem, ⟨4, _⟩ => ⟨S1x8x1024x64, .bf16⟩
  | .local _ .vmem, ⟨5, _⟩ => ⟨S1x8x1024x64, .bf16⟩
  | .local _ .vmem, ⟨6, _⟩ => ⟨S1x8x1024x64, .bf16⟩
  | .local _ .vmem, ⟨7, _⟩ => ⟨S1x8x1024x64, .bf16⟩
  | .local _ .vmem, ⟨8, _⟩ => ⟨S1x8x1024x64, .bf16⟩
  | .local _ .vmem, ⟨9, _⟩ => ⟨S1x256x64, .bf16⟩
  | .local _ .vmem, ⟨10, _⟩ => ⟨S1x256x64, .bf16⟩
  | .local _ .vmem, ⟨11, _⟩ => ⟨S1x4096x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x256x64, .bf16⟩
  | .local _ .vmem, ⟨16, _⟩ => ⟨S1x256x64, .bf16⟩
  | .local _ .vmem, ⟨17, _⟩ => ⟨S1x8x1024x64, .bf16⟩
  | .local _ .vmem, ⟨18, _⟩ => ⟨S1x8x1024x64, .bf16⟩
  | .local _ .vmem, ⟨19, _⟩ => ⟨S512x512, .bf16⟩
  | .local _ .vmem, ⟨20, _⟩ => ⟨S1x512, .f32⟩
  | .local _ .vmem, ⟨21, _⟩ => ⟨S1x1024x512, .f32⟩
  | .local _ .vmem, ⟨22, _⟩ => ⟨S1x1024x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  transposes_S1536x512_S512x1536_1_0 : S1536x512.Transposes [1, 0] S512x1536
  transposes_S512x512_S512x512_1_0 : S512x512.Transposes [1, 0] S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S1024x1536_o0_0_S1024x64 : S1024x1536.Slices ![0, 0] S1024x64
  inb_S1x8x1024x64_S1x1x1024x64_0_0_0_0 : ∀ a, (![0, 0, 0, 0] : Fin 4 → Nat) a + S1x1x1024x64.size a ≤ S1x8x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  packedbf16_S1x8x1024x64_S1x1x1024x64_0_0_0_0 : (Rect.unit (s := S1x8x1024x64) ![0, 0, 0, 0] S1x1x1024x64.size inb_S1x8x1024x64_S1x1x1024x64_0_0_0_0).PackedRows (EltTy.packing .bf16)
  slices_S1024x1536_o0_512_S1024x64 : S1024x1536.Slices ![0, 512] S1024x64
  slices_S1024x1536_o0_1024_S1024x64 : S1024x1536.Slices ![0, 1024] S1024x64
  slices_S1024x1536_o0_64_S1024x64 : S1024x1536.Slices ![0, 64] S1024x64
  inb_S1x8x1024x64_S1x1x1024x64_0_1_0_0 : ∀ a, (![0, 1, 0, 0] : Fin 4 → Nat) a + S1x1x1024x64.size a ≤ S1x8x1024x64.size a
  packedbf16_S1x8x1024x64_S1x1x1024x64_0_1_0_0 : (Rect.unit (s := S1x8x1024x64) ![0, 1, 0, 0] S1x1x1024x64.size inb_S1x8x1024x64_S1x1x1024x64_0_1_0_0).PackedRows (EltTy.packing .bf16)
  slices_S1024x1536_o0_576_S1024x64 : S1024x1536.Slices ![0, 576] S1024x64
  slices_S1024x1536_o0_1088_S1024x64 : S1024x1536.Slices ![0, 1088] S1024x64
  slices_S1024x1536_o0_128_S1024x64 : S1024x1536.Slices ![0, 128] S1024x64
  inb_S1x8x1024x64_S1x1x1024x64_0_2_0_0 : ∀ a, (![0, 2, 0, 0] : Fin 4 → Nat) a + S1x1x1024x64.size a ≤ S1x8x1024x64.size a
  packedbf16_S1x8x1024x64_S1x1x1024x64_0_2_0_0 : (Rect.unit (s := S1x8x1024x64) ![0, 2, 0, 0] S1x1x1024x64.size inb_S1x8x1024x64_S1x1x1024x64_0_2_0_0).PackedRows (EltTy.packing .bf16)
  slices_S1024x1536_o0_640_S1024x64 : S1024x1536.Slices ![0, 640] S1024x64
  slices_S1024x1536_o0_1152_S1024x64 : S1024x1536.Slices ![0, 1152] S1024x64
  slices_S1024x1536_o0_192_S1024x64 : S1024x1536.Slices ![0, 192] S1024x64
  inb_S1x8x1024x64_S1x1x1024x64_0_3_0_0 : ∀ a, (![0, 3, 0, 0] : Fin 4 → Nat) a + S1x1x1024x64.size a ≤ S1x8x1024x64.size a
  packedbf16_S1x8x1024x64_S1x1x1024x64_0_3_0_0 : (Rect.unit (s := S1x8x1024x64) ![0, 3, 0, 0] S1x1x1024x64.size inb_S1x8x1024x64_S1x1x1024x64_0_3_0_0).PackedRows (EltTy.packing .bf16)
  slices_S1024x1536_o0_704_S1024x64 : S1024x1536.Slices ![0, 704] S1024x64
  slices_S1024x1536_o0_1216_S1024x64 : S1024x1536.Slices ![0, 1216] S1024x64
  slices_S1024x1536_o0_256_S1024x64 : S1024x1536.Slices ![0, 256] S1024x64
  inb_S1x8x1024x64_S1x1x1024x64_0_4_0_0 : ∀ a, (![0, 4, 0, 0] : Fin 4 → Nat) a + S1x1x1024x64.size a ≤ S1x8x1024x64.size a
  packedbf16_S1x8x1024x64_S1x1x1024x64_0_4_0_0 : (Rect.unit (s := S1x8x1024x64) ![0, 4, 0, 0] S1x1x1024x64.size inb_S1x8x1024x64_S1x1x1024x64_0_4_0_0).PackedRows (EltTy.packing .bf16)
  slices_S1024x1536_o0_768_S1024x64 : S1024x1536.Slices ![0, 768] S1024x64
  slices_S1024x1536_o0_1280_S1024x64 : S1024x1536.Slices ![0, 1280] S1024x64
  slices_S1024x1536_o0_320_S1024x64 : S1024x1536.Slices ![0, 320] S1024x64
  inb_S1x8x1024x64_S1x1x1024x64_0_5_0_0 : ∀ a, (![0, 5, 0, 0] : Fin 4 → Nat) a + S1x1x1024x64.size a ≤ S1x8x1024x64.size a
  packedbf16_S1x8x1024x64_S1x1x1024x64_0_5_0_0 : (Rect.unit (s := S1x8x1024x64) ![0, 5, 0, 0] S1x1x1024x64.size inb_S1x8x1024x64_S1x1x1024x64_0_5_0_0).PackedRows (EltTy.packing .bf16)
  slices_S1024x1536_o0_832_S1024x64 : S1024x1536.Slices ![0, 832] S1024x64
  slices_S1024x1536_o0_1344_S1024x64 : S1024x1536.Slices ![0, 1344] S1024x64
  slices_S1024x1536_o0_384_S1024x64 : S1024x1536.Slices ![0, 384] S1024x64
  inb_S1x8x1024x64_S1x1x1024x64_0_6_0_0 : ∀ a, (![0, 6, 0, 0] : Fin 4 → Nat) a + S1x1x1024x64.size a ≤ S1x8x1024x64.size a
  packedbf16_S1x8x1024x64_S1x1x1024x64_0_6_0_0 : (Rect.unit (s := S1x8x1024x64) ![0, 6, 0, 0] S1x1x1024x64.size inb_S1x8x1024x64_S1x1x1024x64_0_6_0_0).PackedRows (EltTy.packing .bf16)
  slices_S1024x1536_o0_896_S1024x64 : S1024x1536.Slices ![0, 896] S1024x64
  slices_S1024x1536_o0_1408_S1024x64 : S1024x1536.Slices ![0, 1408] S1024x64
  slices_S1024x1536_o0_448_S1024x64 : S1024x1536.Slices ![0, 448] S1024x64
  inb_S1x8x1024x64_S1x1x1024x64_0_7_0_0 : ∀ a, (![0, 7, 0, 0] : Fin 4 → Nat) a + S1x1x1024x64.size a ≤ S1x8x1024x64.size a
  packedbf16_S1x8x1024x64_S1x1x1024x64_0_7_0_0 : (Rect.unit (s := S1x8x1024x64) ![0, 7, 0, 0] S1x1x1024x64.size inb_S1x8x1024x64_S1x1x1024x64_0_7_0_0).PackedRows (EltTy.packing .bf16)
  slices_S1024x1536_o0_960_S1024x64 : S1024x1536.Slices ![0, 960] S1024x64
  slices_S1024x1536_o0_1472_S1024x64 : S1024x1536.Slices ![0, 1472] S1024x64
  shapeCasts_S2x8x4096x64_S16x4096x64 : S2x8x4096x64.ShapeCasts S16x4096x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  shapeCasts_S256x64_S1x256x64 : S256x64.ShapeCasts S1x256x64
  packedbf16_S1x256x64_S1x256x64_0_0_0 : (Rect.unit (s := S1x256x64) ![0, 0, 0] S1x256x64.size inb_S1x256x64_S1x256x64_0_0_0).PackedRows (EltTy.packing .bf16)
  shapeCasts_S16x4096x64_S2x8x4096x64 : S16x4096x64.ShapeCasts S2x8x4096x64
  shapeCasts_S512_S1x512 : S512.ShapeCasts S1x512
  inb_S512x512_S64x512_0_0 : ∀ a, (![0, 0] : Fin 2 → Nat) a + S64x512.size a ≤ S512x512.size a
  h_S64x512 : 0 < S64x512.numel
  shapeCasts_S64x512_S64x512 : S64x512.ShapeCasts S64x512
  inb_S512x512_S64x512_64_0 : ∀ a, (![64, 0] : Fin 2 → Nat) a + S64x512.size a ≤ S512x512.size a
  inb_S512x512_S64x512_128_0 : ∀ a, (![128, 0] : Fin 2 → Nat) a + S64x512.size a ≤ S512x512.size a
  inb_S512x512_S64x512_192_0 : ∀ a, (![192, 0] : Fin 2 → Nat) a + S64x512.size a ≤ S512x512.size a
  inb_S512x512_S64x512_256_0 : ∀ a, (![256, 0] : Fin 2 → Nat) a + S64x512.size a ≤ S512x512.size a
  inb_S512x512_S64x512_320_0 : ∀ a, (![320, 0] : Fin 2 → Nat) a + S64x512.size a ≤ S512x512.size a
  inb_S512x512_S64x512_384_0 : ∀ a, (![384, 0] : Fin 2 → Nat) a + S64x512.size a ≤ S512x512.size a
  inb_S512x512_S64x512_448_0 : ∀ a, (![448, 0] : Fin 2 → Nat) a + S64x512.size a ≤ S512x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  dot_S1024x512_S512x1536_S1024x1536_1_0_0_1_n_n_wf : DotDims.WF S1024x512 S512x1536 S1024x1536 [1] [0] [0] [1] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  dot_S1024x64_S64x512_S1024x512_1_0_0_1_n_n_wf : DotDims.WF S1024x64 S64x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x4096x512.size a
  hwx0_0 : ∀ i : grid0.Coords, EltTy.bits .f32 = 32 ∨ (Rect.block (s := S2x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1024x64.size a ≤ S2x8x4096x64.size a
  hwx0_2 : ∀ i : grid0.Coords, EltTy.bits .bf16 = 32 ∨ (Rect.block (s := S2x8x4096x64) S1x8x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1024x64.size a ≤ S2x8x4096x64.size a
  hwx0_3 : ∀ i : grid0.Coords, EltTy.bits .bf16 = 32 ∨ (Rect.block (s := S2x8x4096x64) S1x8x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1024x64.size a ≤ S2x8x4096x64.size a
  hwx0_4 : ∀ i : grid0.Coords, EltTy.bits .bf16 = 32 ∨ (Rect.block (s := S2x8x4096x64) S1x8x1024x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S16x4096x64.size a
  hwx1_0 : ∀ i : grid1.Coords, EltTy.bits .bf16 = 32 ∨ (Rect.block (s := S16x4096x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S16x4096x64.size a
  hwx1_1 : ∀ i : grid1.Coords, EltTy.bits .bf16 = 32 ∨ (Rect.block (s := S16x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S16x4096x64.size a
  hwx1_2 : ∀ i : grid1.Coords, EltTy.bits .bf16 = 32 ∨ (Rect.block (s := S16x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S16x4096x64.size a
  hwx1_3 : ∀ i : grid1.Coords, EltTy.bits .bf16 = 32 ∨ (Rect.block (s := S16x4096x64) S1x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x1024x64.size a ≤ S2x8x4096x64.size a
  hwx2_0 : ∀ i : grid2.Coords, EltTy.bits .bf16 = 32 ∨ (Rect.block (s := S2x8x4096x64) S1x8x1024x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x512.size a ≤ S2x4096x512.size a
  hwx2_3 : ∀ i : grid2.Coords, EltTy.bits .f32 = 32 ∨ (Rect.block (s := S2x4096x512) S1x1024x512.size (cc2_transform_3 i) (hinb2_3 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x8x1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x8x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x8x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1x8x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S2x4096x1536 : Shape := ⟨3, ![2, 4096, 1536]⟩
abbrev S2x4096x3x8x64 : Shape := ⟨5, ![2, 4096, 3, 8, 64]⟩
abbrev S3x2x8x4096x64 : Shape := ⟨5, ![3, 2, 8, 4096, 64]⟩
abbrev S1x2x8x4096x64 : Shape := ⟨5, ![1, 2, 8, 4096, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x4096x8x64 : Shape := ⟨4, ![2, 4096, 8, 64]⟩
abbrev S1x1x512 : Shape := ⟨3, ![1, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S2x4096x1536, .f32⟩
  | .hbm, ⟨5, _⟩ => ⟨S2x4096x3x8x64, .f32⟩
  | .hbm, ⟨6, _⟩ => ⟨S3x2x8x4096x64, .f32⟩
  | .hbm, ⟨7, _⟩ => ⟨S1x2x8x4096x64, .f32⟩
  | .hbm, ⟨8, _⟩ => ⟨S2x8x4096x64, .f32⟩
  | .hbm, ⟨9, _⟩ => ⟨S1x2x8x4096x64, .f32⟩
  | .hbm, ⟨10, _⟩ => ⟨S2x8x4096x64, .f32⟩
  | .hbm, ⟨11, _⟩ => ⟨S1x2x8x4096x64, .f32⟩
  | .hbm, ⟨12, _⟩ => ⟨S2x8x4096x64, .f32⟩
  | .hbm, ⟨13, _⟩ => ⟨S2x8x4096x4096, .f32⟩
  | .hbm, ⟨14, _⟩ => ⟨S_, .f32⟩
  | .hbm, ⟨15, _⟩ => ⟨S2x8x4096x4096, .f32⟩
  | .hbm, ⟨16, _⟩ => ⟨S2x8x4096x4096, .f32⟩
  | .hbm, ⟨17, _⟩ => ⟨S_, .f32⟩
  | .hbm, ⟨18, _⟩ => ⟨S2x8x4096, .f32⟩
  | .hbm, ⟨19, _⟩ => ⟨S_, .f32⟩
  | .hbm, ⟨20, _⟩ => ⟨S2x8x4096, .f32⟩
  | .hbm, ⟨21, _⟩ => ⟨S2x8x4096, .f32⟩
  | .hbm, ⟨22, _⟩ => ⟨S2x8x4096x1, .f32⟩
  | .hbm, ⟨23, _⟩ => ⟨S2x8x4096x4096, .f32⟩
  | .hbm, ⟨24, _⟩ => ⟨S2x8x4096x4096, .f32⟩
  | .hbm, ⟨25, _⟩ => ⟨S2x8x4096x4096, .f32⟩
  | .hbm, ⟨26, _⟩ => ⟨S_, .f32⟩
  | .hbm, ⟨27, _⟩ => ⟨S2x8x4096, .f32⟩
  | .hbm, ⟨28, _⟩ => ⟨S2x8x4096x1, .f32⟩
  | .hbm, ⟨29, _⟩ => ⟨S2x8x4096x4096, .f32⟩
  | .hbm, ⟨30, _⟩ => ⟨S2x8x4096x4096, .f32⟩
  | .hbm, ⟨31, _⟩ => ⟨S2x8x4096x64, .f32⟩
  | .hbm, ⟨32, _⟩ => ⟨S2x4096x8x64, .f32⟩
  | .hbm, ⟨33, _⟩ => ⟨S2x4096x512, .f32⟩
  | .hbm, ⟨34, _⟩ => ⟨S2x4096x512, .f32⟩
  | .hbm, ⟨35, _⟩ => ⟨S1x1x512, .f32⟩
  | .hbm, ⟨36, _⟩ => ⟨S2x4096x512, .f32⟩
  | .hbm, ⟨37, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S2x4096x1536_S2x4096x3x8x64 : S2x4096x1536.ShapeCasts S2x4096x3x8x64
  transposes_S2x4096x3x8x64_S3x2x8x4096x64_2_0_3_1_4 : S2x4096x3x8x64.Transposes [2, 0, 3, 1, 4] S3x2x8x4096x64
  slices_S3x2x8x4096x64_S1x2x8x4096x64_0_0_0_0_0 : S3x2x8x4096x64.Slices ![0, 0, 0, 0, 0] S1x2x8x4096x64
  shapeCasts_S1x2x8x4096x64_S2x8x4096x64 : S1x2x8x4096x64.ShapeCasts S2x8x4096x64
  slices_S3x2x8x4096x64_S1x2x8x4096x64_1_0_0_0_0 : S3x2x8x4096x64.Slices ![1, 0, 0, 0, 0] S1x2x8x4096x64
  slices_S3x2x8x4096x64_S1x2x8x4096x64_2_0_0_0_0 : S3x2x8x4096x64.Slices ![2, 0, 0, 0, 0] S1x2x8x4096x64
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x8x4096x64_S2x4096x8x64_0_2_1_3 : S2x8x4096x64.Transposes [0, 2, 1, 3] S2x4096x8x64
  shapeCasts_S2x4096x8x64_S2x4096x512 : S2x4096x8x64.ShapeCasts S2x4096x512
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  dot_S2x4096x512_S1536x512_S2x4096x1536_2_1_01_0_n_n_wf : DotDims.WF S2x4096x512 S1536x512 S2x4096x1536 [2] [1] [0, 1] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]
  dot_S2x4096x512_S512x512_S2x4096x512_2_1_01_0_n_n_wf : DotDims.WF S2x4096x512 S512x512 S2x4096x512 [2] [1] [0, 1] [0] [] []

variable [Facts₀]

def dot_S2x4096x512_S1536x512_S2x4096x1536_2_1_01_0_n_n : DotDims S2x4096x512 S1536x512 S2x4096x1536 where
  lhsContracting := [2]
  rhsContracting := [1]
  lhsNonContracting := [0, 1]
  rhsNonContracting := [0]
  lhsBatch := []
  rhsBatch := []
  wf := dot_S2x4096x512_S1536x512_S2x4096x1536_2_1_01_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf
def dot_S2x4096x512_S512x512_S2x4096x512_2_1_01_0_n_n : DotDims S2x4096x512 S512x512 S2x4096x512 where
  lhsContracting := [2]
  rhsContracting := [1]
  lhsNonContracting := [0, 1]
  rhsNonContracting := [0]
  lhsBatch := []
  rhsBatch := []
  wf := dot_S2x4096x512_S512x512_S2x4096x512_2_1_01_0_n_n_wf

class Facts : Prop extends Facts₀ where

variable [Facts]
-- ==== Proof.Spec.lean ====
/-
  The mathematics of dense multi-head self-attention over the extended reals, stated once over plain
  coordinates (batch b < 2, head h < 8, position n < 4096, head channel e < 64, model channel c < 512),
  with no program in sight: the fused q/k/v projection, the scaled scores, the row softmax in its two
  arrangements (normalise AFTER the product with v, as a kernel that keeps the row resident does, and
  normalise BEFORE it, as a softmax followed by a product with v does), and the output projection in its
  two arrangements (eight per-head partial products added in a chain, and one product over all 512
  channels). Both programs' results are instances of these functions; Algebra.lean joins them.
-/
import Idealize.ShloMosaic.PureOps.Ideal
import Idealize.ShloMosaic.Lib.ValueIdx

noncomputable section

namespace Cert.Attn

open Idealize.ShloMosaic

/-- A value is a real number (neither +∞ nor -∞). -/
def IsReal (x : EReal) : Prop := ∃ r : ℝ, x = (r : EReal)

/-- Column `t·512 + h·64 + e` of the fused projection: t = 0, 1, 2 for q, k, v. -/
def hcol (t : Fin 3) (h : Fin 8) (e : Fin 64) : Fin 1536 :=
  ⟨t.val * 512 + h.val * 64 + e.val, by have := t.isLt; have := h.isLt; have := e.isLt; omega⟩

/-- Channel `h·64 + e` of the model dimension. -/
def hch (h : Fin 8) (e : Fin 64) : Fin 512 :=
  ⟨h.val * 64 + e.val, by have := h.isLt; have := e.isLt; omega⟩

/-- The fused projection x · w_qkvᵀ at (b, n, d). -/
def lin (X : Fin 2 → Fin 4096 → Fin 512 → EReal) (W : Fin 1536 → Fin 512 → EReal)
    (b : Fin 2) (n : Fin 4096) (d : Fin 1536) : EReal :=
  ∑ c : Fin 512, X b n c * W d c

/-- q (t = 0), k (t = 1) or v (t = 2) of batch b, head h, at (n, e). -/
def qkv (X : Fin 2 → Fin 4096 → Fin 512 → EReal) (W : Fin 1536 → Fin 512 → EReal) (t : Fin 3)
    (b : Fin 2) (h : Fin 8) (n : Fin 4096) (e : Fin 64) : EReal :=
  lin X W b n (hcol t h e)

/-- The scale 1/8 = 64^(-1/2), as both programs spell it: the f32 word 0x3E000000. -/
def scale : EReal := Ideal.ofBits .f32 0x3E000000#32

/-- The initial value of the row maximum, as both programs spell it: the f32 word of -∞. -/
def negInf : EReal := Ideal.ofBits .f32 0xFF800000#32

/-- Scaled scores of one (batch, head): (q_n · k_m) / 8. -/
def score (q k : Fin 4096 → Fin 64 → EReal) (n m : Fin 4096) : EReal :=
  (∑ e : Fin 64, q n e * k m e) * scale

/-- A row's maximum, folded from -∞. -/
def rowmax (s : Fin 4096 → EReal) : EReal := (Finset.univ : Finset (Fin 4096)).fold max negInf s

/-- The softmax numerator exp (s_nm - max_m s_nm). -/
def pexp (s : Fin 4096 → Fin 4096 → EReal) (n m : Fin 4096) : EReal := Ideal.exp (s n m - rowmax (s n))

/-- The softmax denominator. -/
def lsum (s : Fin 4096 → Fin 4096 → EReal) (n : Fin 4096) : EReal := ∑ m : Fin 4096, pexp s n m

/-- Attention of one (batch, head), normalised AFTER the product with v. -/
def attnLate (q k v : Fin 4096 → Fin 64 → EReal) (n : Fin 4096) (e : Fin 64) : EReal :=
  Ideal.div (∑ m : Fin 4096, pexp (score q k) n m * v m e) (lsum (score q k) n)

/-- Attention of one (batch, head), normalised BEFORE the product with v. -/
def attnEarly (q k v : Fin 4096 → Fin 64 → EReal) (n : Fin 4096) (e : Fin 64) : EReal :=
  ∑ m : Fin 4096, Ideal.div (pexp (score q k) n m) (lsum (score q k) n) * v m e

/-- One head's share of the output projection at (n, d). -/
def headTerm (o : Fin 8 → Fin 4096 → Fin 64 → EReal) (Wp : Fin 512 → Fin 512 → EReal)
    (h : Fin 8) (n : Fin 4096) (d : Fin 512) : EReal :=
  ∑ e : Fin 64, o h n e * Wp d (hch h e)

/-- The output projection as eight per-head products added in a chain, then the bias. -/
def projChain (o : Fin 8 → Fin 4096 → Fin 64 → EReal) (Wp : Fin 512 → Fin 512 → EReal) (B : Fin 512 → EReal)
    (n : Fin 4096) (d : Fin 512) : EReal :=
  (((((((headTerm o Wp 0 n d + headTerm o Wp 1 n d) + headTerm o Wp 2 n d) + headTerm o Wp 3 n d)
    + headTerm o Wp 4 n d) + headTerm o Wp 5 n d) + headTerm o Wp 6 n d) + headTerm o Wp 7 n d) + B d

/-- The output projection as one product over all 512 channels (channel c is head c / 64, head channel c % 64), then the bias. -/
def projWhole (o : Fin 8 → Fin 4096 → Fin 64 → EReal) (Wp : Fin 512 → Fin 512 → EReal) (B : Fin 512 → EReal)
    (n : Fin 4096) (d : Fin 512) : EReal :=
  (∑ c : Fin 512, o ⟨c.val / 64, by have := c.isLt; omega⟩ n ⟨c.val % 64, Nat.mod_lt _ (by decide)⟩ * Wp d c) + B d

/-- The whole layer with late normalisation and the chained projection. -/
def layerLate (X : Fin 2 → Fin 4096 → Fin 512 → EReal) (W : Fin 1536 → Fin 512 → EReal)
    (Wp : Fin 512 → Fin 512 → EReal) (B : Fin 512 → EReal) (b : Fin 2) (n : Fin 4096) (d : Fin 512) : EReal :=
  projChain (fun h => attnLate (qkv X W 0 b h) (qkv X W 1 b h) (qkv X W 2 b h)) Wp B n d

/-- The whole layer with early normalisation and the one-product projection. -/
def layerEarly (X : Fin 2 → Fin 4096 → Fin 512 → EReal) (W : Fin 1536 → Fin 512 → EReal)
    (Wp : Fin 512 → Fin 512 → EReal) (B : Fin 512 → EReal) (b : Fin 2) (n : Fin 4096) (d : Fin 512) : EReal :=
  projWhole (fun h => attnEarly (qkv X W 0 b h) (qkv X W 1 b h) (qkv X W 2 b h)) Wp B n d

end Cert.Attn

end
-- ==== Proof.Algebra.lean ====
/-
  The two arrangements of dense multi-head self-attention agree over the extended reals.

  Softmax: with real queries and keys every scaled score is real, so the row maximum (folded from -∞
  over a nonempty row) is real, every exponent s - max is real, every numerator exp (s - max) is a
  positive real, and the denominator l is a positive real L. Dividing by L is multiplying by the
  nonnegative real 1/L, and multiplication by a nonnegative finite number distributes over any sum of
  extended reals, so (∑ p·v) / L = ∑ (p / L)·v whatever the values v are.

  Projection: addition of extended reals is commutative and associative, so a sum over the 512
  channels h·64 + e is the sum over the eight heads of the sums over the 64 head channels.
-/
import proofs.«406941_j3049426780465_3_alg».proof.Proof.Spec
import Mathlib.Data.EReal.Operations
import Mathlib.Data.EReal.Inv
import Mathlib.Algebra.BigOperators.Fin

noncomputable section

open Idealize.ShloMosaic

namespace Cert.Attn

/-- A value is a positive real number. -/
def IsPos (x : EReal) : Prop := ∃ r : ℝ, 0 < r ∧ x = (r : EReal)

theorem IsReal.coe (r : ℝ) : IsReal (r : EReal) := ⟨r, rfl⟩

theorem IsReal.zero : IsReal (0 : EReal) := ⟨0, by simp⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.max {x y : EReal} (hx : IsReal x) (hy : IsReal y) : IsReal (max x y) := by
  rcases max_choice x y with h | h <;> rw [h] <;> assumption

theorem IsPos.add {x y : EReal} (hx : IsPos x) (hy : IsPos y) : IsPos (x + y) := by
  obtain ⟨a, ha, rfl⟩ := hx
  obtain ⟨b, hb, rfl⟩ := hy
  exact ⟨a + b, add_pos ha hb, (EReal.coe_add a b).symm⟩

/-- A finite sum of real numbers is a real number. -/
theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- A nonempty finite sum of positive reals is a positive real. -/
theorem IsPos.sum {ι : Type*} (s : Finset ι) (f : ι → EReal) (hs : s.Nonempty) (h : ∀ i ∈ s, IsPos (f i)) :
    IsPos (∑ i ∈ s, f i) :=
  Finset.sum_induction_nonempty f IsPos (fun _ _ => IsPos.add) hs h

/-- The maximum of a nonempty finite family of reals, folded from -∞, is a real. -/
theorem fold_max_isReal {ι : Type*} (s : Finset ι) (g : ι → EReal) (hs : s.Nonempty)
    (hg : ∀ i ∈ s, IsReal (g i)) : IsReal (s.fold max ⊥ g) := by
  classical
  induction s using Finset.induction_on with
  | empty => exact absurd hs (by simp)
  | insert a s ha ih =>
    rw [Finset.fold_insert ha]
    rcases s.eq_empty_or_nonempty with rfl | hne
    · simpa using hg a (Finset.mem_insert_self a _)
    · exact (hg a (Finset.mem_insert_self a _)).max (ih hne fun i hi => hg i (Finset.mem_insert_of_mem hi))

/-- Multiplication by a nonnegative finite number distributes over a finite sum of extended reals. -/
theorem sum_mul_of_nonneg {ι : Type*} (s : Finset ι) (f : ι → EReal) {c : EReal} (hc : 0 ≤ c) (hc' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- The word 0x3E000000 is 1/8: sign 0, exponent 124, fraction 0, so 2^23 · 2^(124 - 127 - 23) = 2^(-3). -/
theorem scale_eq : scale = ((1 / 8 : ℝ) : EReal) := by
  simp [scale, Ideal.ofBits, Ideal.ieee]
  rw [← EReal.coe_mul]
  norm_num

/-- The word 0xFF800000 is -∞: sign 1, exponent all ones, fraction 0. -/
theorem negInf_eq : negInf = ⊥ := by
  simp [negInf, Ideal.ofBits, Ideal.ieee]

/-- With real queries and keys every scaled score is real. -/
theorem score_isReal (q k : Fin 4096 → Fin 64 → EReal)
    (hq : ∀ n e, IsReal (q n e)) (hk : ∀ n e, IsReal (k n e)) (n m : Fin 4096) : IsReal (score q k n m) := by
  unfold score
  rw [scale_eq]
  exact (IsReal.sum _ _ fun e _ => (hq n e).mul (hk m e)).mul (IsReal.coe _)

/-- The maximum of a row of reals is real. -/
theorem rowmax_isReal (s : Fin 4096 → EReal) (hs : ∀ m, IsReal (s m)) : IsReal (rowmax s) := by
  unfold rowmax
  rw [negInf_eq]
  exact fold_max_isReal _ _ ⟨0, Finset.mem_univ _⟩ fun m _ => hs m

/-- Every softmax numerator of a real score matrix is a positive real. -/
theorem pexp_isPos (s : Fin 4096 → Fin 4096 → EReal) (hs : ∀ n m, IsReal (s n m)) (n m : Fin 4096) :
    IsPos (pexp s n m) := by
  obtain ⟨a, ha⟩ := hs n m
  obtain ⟨M, hM⟩ := rowmax_isReal (s n) (hs n)
  refine ⟨Real.exp (a - M), Real.exp_pos _, ?_⟩
  unfold pexp
  rw [ha, hM, ← EReal.coe_sub, Ideal.exp_coe]

/-- The softmax denominator of a real score matrix is a positive real. -/
theorem lsum_isPos (s : Fin 4096 → Fin 4096 → EReal) (hs : ∀ n m, IsReal (s n m)) (n : Fin 4096) :
    IsPos (lsum s n) := by
  unfold lsum
  exact IsPos.sum _ _ ⟨0, Finset.mem_univ _⟩ fun m _ => pexp_isPos s hs n m

theorem attnLate_eq_attnEarly (q k v : Fin 4096 → Fin 64 → EReal)
    (hq : ∀ n e, IsReal (q n e)) (hk : ∀ n e, IsReal (k n e)) (n : Fin 4096) (e : Fin 64) :
    attnLate q k v n e = attnEarly q k v n e := by
  obtain ⟨L, hL, hl⟩ := lsum_isPos (score q k) (score_isReal q k hq hk) n
  have hc : (0 : EReal) ≤ ((1 / L : ℝ) : EReal) := EReal.coe_nonneg.mpr (by positivity)
  unfold attnLate attnEarly
  rw [hl, Ideal.div_coe hL.ne', sum_mul_of_nonneg _ _ hc (EReal.coe_ne_top _)]
  refine Finset.sum_congr rfl fun m _ => ?_
  rw [Ideal.div_coe hL.ne', mul_right_comm]

/-- The head and head channel of a model channel. -/
def hchInv (c : Fin 512) : Fin 8 × Fin 64 :=
  (⟨c.val / 64, by have := c.isLt; omega⟩, ⟨c.val % 64, Nat.mod_lt _ (by decide)⟩)

/-- A sum over the 512 channels is the sum over heads of the sums over head channels. -/
theorem sum_hch {M : Type*} [AddCommMonoid M] (F : Fin 512 → M) :
    ∑ c : Fin 512, F c = ∑ h : Fin 8, ∑ e : Fin 64, F (hch h e) := by
  rw [← Fintype.sum_prod_type' (f := fun h e => F (hch h e))]
  symm
  refine Fintype.sum_bijective (fun p : Fin 8 × Fin 64 => hch p.1 p.2) ?_ _ _ fun p => rfl
  rw [Function.bijective_iff_has_inverse]
  refine ⟨hchInv, ?_, ?_⟩
  · rintro ⟨h, e⟩
    have := h.isLt
    have := e.isLt
    refine Prod.ext (Fin.ext ?_) (Fin.ext ?_) <;> simp only [hch, hchInv] <;> omega
  · intro c
    refine Fin.ext ?_
    simp only [hch, hchInv]
    omega

theorem projChain_eq_projWhole (o : Fin 8 → Fin 4096 → Fin 64 → EReal) (Wp : Fin 512 → Fin 512 → EReal)
    (B : Fin 512 → EReal) (n : Fin 4096) (d : Fin 512) : projChain o Wp B n d = projWhole o Wp B n d := by
  unfold projChain projWhole
  rw [sum_hch, Fin.sum_univ_eight]
  have hterm : ∀ h : Fin 8, (∑ e : Fin 64,
      o ⟨(hch h e).val / 64, by have := (hch h e).isLt; omega⟩ n ⟨(hch h e).val % 64, Nat.mod_lt _ (by decide)⟩
        * Wp d (hch h e)) = headTerm o Wp h n d := by
    intro h
    unfold headTerm
    refine Finset.sum_congr rfl fun e _ => ?_
    have h1 : (⟨(hch h e).val / 64, by have := (hch h e).isLt; omega⟩ : Fin 8) = h := by
      have := h.isLt
      have := e.isLt
      refine Fin.ext ?_
      simp only [hch]
      omega
    have h2 : (⟨(hch h e).val % 64, Nat.mod_lt _ (by decide)⟩ : Fin 64) = e := by
      have := h.isLt
      have := e.isLt
      refine Fin.ext ?_
      simp only [hch]
      omega
    rw [h1, h2]
  simp only [hterm]

theorem lin_isReal (X : Fin 2 → Fin 4096 → Fin 512 → EReal) (W : Fin 1536 → Fin 512 → EReal)
    (hX : ∀ b n c, IsReal (X b n c)) (hW : ∀ d c, IsReal (W d c)) (b : Fin 2) (n : Fin 4096) (d : Fin 1536) :
    IsReal (lin X W b n d) := by
  unfold lin
  exact IsReal.sum _ _ fun c _ => (hX b n c).mul (hW d c)

theorem layerLate_eq_layerEarly (X : Fin 2 → Fin 4096 → Fin 512 → EReal) (W : Fin 1536 → Fin 512 → EReal)
    (Wp : Fin 512 → Fin 512 → EReal) (B : Fin 512 → EReal)
    (hX : ∀ b n c, IsReal (X b n c)) (hW : ∀ d c, IsReal (W d c)) (b : Fin 2) (n : Fin 4096) (d : Fin 512) :
    layerLate X W Wp B b n d = layerEarly X W Wp B b n d := by
  unfold layerLate layerEarly
  rw [projChain_eq_projWhole]
  have hattn : (fun h => attnLate (qkv X W 0 b h) (qkv X W 1 b h) (qkv X W 2 b h))
      = fun h => attnEarly (qkv X W 0 b h) (qkv X W 1 b h) (qkv X W 2 b h) := by
    funext h n e
    exact attnLate_eq_attnEarly _ _ _ (fun n e => lin_isReal X W hX hW b n _)
      (fun n e => lin_isReal X W hX hW b n _) n e
  rw [hattn]

end Cert.Attn

end
-- ==== Proof.Finite.lean ====
import proofs.«406941_j3049426780465_3_alg».proof.Pre_finite_inputs
import proofs.«406941_j3049426780465_3_alg».proof.Proof.Gen.Pre_finite_inputs
import proofs.«406941_j3049426780465_3_alg».proof.Proof.Spec
import Idealize.ShloMosaic.Lib.ReduceAll
import Idealize.ShloMosaic.PureOps.Ideal

/-
  Finiteness of the inputs. The precondition compares, entry by entry, the absolute value of each input
  with +∞, folds each array of comparisons by "and" from true, and conjoins the four results. When the
  result is true every comparison is true, so every entry x has max x (-x) < +∞; an extended real with
  that property is neither -∞ nor +∞, hence a real number. Stated here for x and w_qkv.
-/

namespace Cert.Finite

open Idealize.ShloMosaic

/-- The f32 word 0x7F800000 denotes +∞. -/
theorem ofBits_posInf : Ideal.ofBits .f32 0x7F800000#32 = (⊤ : EReal) := by
  simp [Ideal.ofBits, Ideal.ieee]

/-- An extended real whose absolute value max x (-x) lies strictly below +∞ is a real number:
    at -∞ the absolute value is +∞, at +∞ it is +∞, and neither is below +∞. -/
theorem isReal_of_abs_lt_top (x : EReal) (h : max x (-x) < (⊤ : EReal)) : Cert.Attn.IsReal x := by
  induction x using EReal.rec with
  | bot => simp at h
  | coe r => exact ⟨r, rfl⟩
  | top => simp at h

/-- The comparison |x| < +∞, read back from its i1 word. -/
theorem isReal_of_cmp (x : EReal)
    (h : Ideal.cmp .olt (max x (-x)) (Ideal.ofBits .f32 0x7F800000#32) = 1#1) : Cert.Attn.IsReal x := by
  rw [ofBits_posInf] at h
  refine isReal_of_abs_lt_top x ?_
  by_contra hn
  simp [Ideal.cmp, hn] at h

/-- The rank-0 shape has one index. -/
instance : Subsingleton Cert.Pre_finite_inputs.S_.Idx := ⟨fun a b => funext fun d => d.elim0⟩

/-- Under the precondition every entry of the first two inputs is a real number: the conjunction splits
    into its four folds; a fold by "and" over all axes that is true had a true word at every index; and a
    true word at index i says |a i| < +∞. -/
theorem isReal_of_pre
    (a0 : FVec Ideal Cert.Pre_finite_inputs.S2x4096x512 .f32) (a1 : FVec Ideal Cert.Pre_finite_inputs.S1536x512 .f32)
    (a2 : FVec Ideal Cert.Pre_finite_inputs.S512x512 .f32) (a3 : FVec Ideal Cert.Pre_finite_inputs.S512 .f32)
    (h : Cert.Pre_finite_inputs.fn (F := Ideal) a0 a1 a2 a3 = fun _ => 1#1) :
    (∀ i, Cert.Attn.IsReal (a0 i)) ∧ (∀ i, Cert.Attn.IsReal (a1 i)) := by
  have h0 := congrFun h ValueIdx.ix0
  simp only [Cert.Pre_finite_inputs.fn, Cert.Pre_finite_inputs.fn_part1, andi, IntOp.andi_eq_one] at h0
  obtain ⟨⟨⟨e0, e1⟩, _⟩, _⟩ := h0
  refine ⟨fun i => ?_, fun i => ?_⟩
  · have := Host.reduce_andi_all _ _ _ _ _ e0 i
    exact isReal_of_cmp (a0 i) this
  · have := Host.reduce_andi_all _ _ _ _ _ e1 i
    exact isReal_of_cmp (a1 i) this

end Cert.Finite
-- ==== Proof.RefValue.lean ====
import proofs.«406941_j3049426780465_3_alg».proof.Defs
import proofs.«406941_j3049426780465_3_alg».proof.Proof.Gen.ReferenceIdeal.Run
import proofs.«406941_j3049426780465_3_alg».proof.Proof.Gen.ReferenceIdeal.Read
import proofs.«406941_j3049426780465_3_alg».proof.Proof.Spec
import Idealize.ShloMosaic.Lib.ValueIdx
import Idealize.ShloMosaic.Lib.Pipeline.Value
import Idealize.ShloMosaic.PureOps.Ideal.Laws

/-
  The reference program's result, read index by index, is the specification's dense attention layer with
  the softmax normalised before the product with v and the output projection taken as one product over
  all 512 channels. One lemma per named quantity of the specification: the fused projection, q / k / v,
  the scaled scores, the row maximum, the softmax numerator and denominator, the normalised weights, the
  per-head attention, its heads laid side by side along the model dimension, and the projection with bias.
-/

noncomputable section

namespace Cert.RefBridge

open Cert.ReferenceIdeal Cert.ReferenceIdeal.Read Cert.ReferenceIdeal.Gen Idealize.ShloMosaic
open Idealize.ShloMosaic.ValueIdx Cert.Attn

variable (x0 : (⟨S2x4096x512, .f32⟩ : BufTy).Contents (Elt Ideal))
  (x1 : (⟨S1536x512, .f32⟩ : BufTy).Contents (Elt Ideal))

/-- The activations over plain coordinates. -/
abbrev X : Fin 2 → Fin 4096 → Fin 512 → EReal := fun b n c => x0 (ix3 b n c)

/-- The fused projection's weights over plain coordinates. -/
abbrev W : Fin 1536 → Fin 512 → EReal := fun d c => x1 (ix2 d c)

/-- The scaled scores of batch b, head h. -/
abbrev S (b : Fin 2) (h : Fin 8) : Fin 4096 → Fin 4096 → EReal :=
  score (qkv (X x0) (W x1) 0 b h) (qkv (X x0) (W x1) 1 b h)

/-- The f32 word of -∞ denotes the least extended real. -/
theorem negInf_eq_bot : negInf = ⊥ := by simp [negInf, Ideal.ofBits, Ideal.ieee]

/-- The fused projection at (b, n, d). -/
theorem v0_eq (b : Fin 2) (n : Fin 4096) (d : Fin 1536) :
    val_main_v0 (F := Ideal) x0 x1 (ix3 b n d) = lin (X x0) (W x1) b n d := by
  refine (val_main_v0_apply _ _ _).trans ?_
  unfold lin
  refine Finset.sum_congr rfl fun k _ => ?_
  have el : lidx_main_v0 (ix3 b n d) k = ix3 b n k := funext fun a => Fin.ext (by match a with | ⟨0, _⟩ => rfl | ⟨1, _⟩ => rfl | ⟨2, _⟩ => rfl)
  have er : ridx_main_v0 (ix3 b n d) k = ix2 d k := funext fun a => Fin.ext (by match a with | ⟨0, _⟩ => rfl | ⟨1, _⟩ => rfl)
  rw [el, er]

/-- The projection split into (q/k/v, head, head channel) and transposed: at (t, b, h, n, e) it is column
    t·512 + h·64 + e of the fused projection. -/
theorem v2_eq (t : Fin 3) (b : Fin 2) (h : Fin 8) (n : Fin 4096) (e : Fin 64) :
    val_main_v2 (F := Ideal) x0 x1 (ix5 t b h n e) = qkv (X x0) (W x1) t b h n e := by
  refine (val_main_v2_apply _ _ _).trans ?_
  have e2 : idx_main_v2 (ix5 t b h n e) = ix5 b n t h e := funext fun a => Fin.ext (by match a with | ⟨0, _⟩ => rfl | ⟨1, _⟩ => rfl | ⟨2, _⟩ => rfl | ⟨3, _⟩ => rfl | ⟨4, _⟩ => rfl)
  rw [e2]
  refine (val_main_v1_apply _ _ _).trans ?_
  have e1 : idx_main_v1 (ix5 b n t h e) = ix3 b n (hcol t h e) := funext fun a => Fin.ext (by
    have := b.isLt; have := n.isLt; have := t.isLt; have := h.isLt; have := e.isLt
    match a with
    | ⟨0, _⟩ => show ((((b.val * 4096 + n.val) * 3 + t.val) * 8 + h.val) * 64 + e.val) / 6291456 = b.val; omega
    | ⟨1, _⟩ => show ((((b.val * 4096 + n.val) * 3 + t.val) * 8 + h.val) * 64 + e.val) / 1536 % 4096 = n.val; omega
    | ⟨2, _⟩ => show ((((b.val * 4096 + n.val) * 3 + t.val) * 8 + h.val) * 64 + e.val) % 1536 = t.val * 512 + h.val * 64 + e.val; omega)
  rw [e1]
  exact v0_eq x0 x1 b n (hcol t h e)

/-- Slice 0 of the transposed projection, with its unit axis dropped, at (b, h, n, e). -/
theorem v4_eq (b : Fin 2) (h : Fin 8) (n : Fin 4096) (e : Fin 64) :
    val_main_v4 (F := Ideal) x0 x1 (ix4 b h n e) = qkv (X x0) (W x1) 0 b h n e := by
  refine (val_main_v4_apply _ _ _).trans ?_
  have e4 : idx_main_v4 (ix4 b h n e) = ix5 (0 : Fin 1) b h n e := funext fun a => Fin.ext (by
    have := b.isLt; have := h.isLt; have := n.isLt; have := e.isLt
    match a with
    | ⟨0, _⟩ => rfl
    | ⟨1, _⟩ => show (((b.val * 8 + h.val) * 4096 + n.val) * 64 + e.val) / 2097152 % 2 = b.val; omega
    | ⟨2, _⟩ => show (((b.val * 8 + h.val) * 4096 + n.val) * 64 + e.val) / 262144 % 8 = h.val; omega
    | ⟨3, _⟩ => show (((b.val * 8 + h.val) * 4096 + n.val) * 64 + e.val) / 64 % 4096 = n.val; omega
    | ⟨4, _⟩ => show (((b.val * 8 + h.val) * 4096 + n.val) * 64 + e.val) % 64 = e.val; omega)
  rw [e4]
  refine (val_main_v3_apply _ _ _).trans ?_
  have e3 : idx_main_v3 (ix5 (0 : Fin 1) b h n e) = ix5 (0 : Fin 3) b h n e :=
    funext fun a => Fin.ext (by match a with | ⟨0, _⟩ => rfl | ⟨1, _⟩ => rfl | ⟨2, _⟩ => rfl | ⟨3, _⟩ => rfl | ⟨4, _⟩ => rfl)
  rw [e3]
  exact v2_eq x0 x1 0 b h n e

/-- Slice 1 of the transposed projection, with its unit axis dropped, at (b, h, n, e). -/
theorem v6_eq (b : Fin 2) (h : Fin 8) (n : Fin 4096) (e : Fin 64) :
    val_main_v6 (F := Ideal) x0 x1 (ix4 b h n e) = qkv (X x0) (W x1) 1 b h n e := by
  refine (val_main_v6_apply _ _ _).trans ?_
  have e4 : idx_main_v6 (ix4 b h n e) = ix5 (0 : Fin 1) b h n e := funext fun a => Fin.ext (by
    have := b.isLt; have := h.isLt; have := n.isLt; have := e.isLt
    match a with
    | ⟨0, _⟩ => rfl
    | ⟨1, _⟩ => show (((b.val * 8 + h.val) * 4096 + n.val) * 64 + e.val) / 2097152 % 2 = b.val; omega
    | ⟨2, _⟩ => show (((b.val * 8 + h.val) * 4096 + n.val) * 64 + e.val) / 262144 % 8 = h.val; omega
    | ⟨3, _⟩ => show (((b.val * 8 + h.val) * 4096 + n.val) * 64 + e.val) / 64 % 4096 = n.val; omega
    | ⟨4, _⟩ => show (((b.val * 8 + h.val) * 4096 + n.val) * 64 + e.val) % 64 = e.val; omega)
  rw [e4]
  refine (val_main_v5_apply _ _ _).trans ?_
  have e3 : idx_main_v5 (ix5 (0 : Fin 1) b h n e) = ix5 (1 : Fin 3) b h n e :=
    funext fun a => Fin.ext (by match a with | ⟨0, _⟩ => rfl | ⟨1, _⟩ => rfl | ⟨2, _⟩ => rfl | ⟨3, _⟩ => rfl | ⟨4, _⟩ => rfl)
  rw [e3]
  exact v2_eq x0 x1 1 b h n e

/-- Slice 2 of the transposed projection, with its unit axis dropped, at (b, h, n, e). -/
theorem v8_eq (b : Fin 2) (h : Fin 8) (n : Fin 4096) (e : Fin 64) :
    val_main_v8 (F := Ideal) x0 x1 (ix4 b h n e) = qkv (X x0) (W x1) 2 b h n e := by
  refine (val_main_v8_apply _ _ _).trans ?_
  have e4 : idx_main_v8 (ix4 b h n e) = ix5 (0 : Fin 1) b h n e := funext fun a => Fin.ext (by
    have := b.isLt; have := h.isLt; have := n.isLt; have := e.isLt
    match a with
    | ⟨0, _⟩ => rfl
    | ⟨1, _⟩ => show (((b.val * 8 + h.val) * 4096 + n.val) * 64 + e.val) / 2097152 % 2 = b.val; omega
    | ⟨2, _⟩ => show (((b.val * 8 + h.val) * 4096 + n.val) * 64 + e.val) / 262144 % 8 = h.val; omega
    | ⟨3, _⟩ => show (((b.val * 8 + h.val) * 4096 + n.val) * 64 + e.val) / 64 % 4096 = n.val; omega
    | ⟨4, _⟩ => show (((b.val * 8 + h.val) * 4096 + n.val) * 64 + e.val) % 64 = e.val; omega)
  rw [e4]
  refine (val_main_v7_apply _ _ _).trans ?_
  have e3 : idx_main_v7 (ix5 (0 : Fin 1) b h n e) = ix5 (2 : Fin 3) b h n e :=
    funext fun a => Fin.ext (by match a with | ⟨0, _⟩ => rfl | ⟨1, _⟩ => rfl | ⟨2, _⟩ => rfl | ⟨3, _⟩ => rfl | ⟨4, _⟩ => rfl)
  rw [e3]
  exact v2_eq x0 x1 2 b h n e

/-- The scaled scores at (b, h, n, m). -/
theorem v11_eq (b : Fin 2) (h : Fin 8) (n m : Fin 4096) :
    val_main_v11 (F := Ideal) x0 x1 (ix4 b h n m) = S x0 x1 b h n m := by
  refine (val_main_v11_apply _ _ _).trans ?_
  have h9 : val_main_v9 (F := Ideal) x0 x1 (ix4 b h n m)
      = ∑ e : Fin 64, qkv (X x0) (W x1) 0 b h n e * qkv (X x0) (W x1) 1 b h m e := by
    refine (val_main_v9_apply _ _ _).trans (Finset.sum_congr rfl fun k _ => ?_)
    have el : lidx_main_v9 (ix4 b h n m) k = ix4 b h n k := funext fun a => Fin.ext (by match a with | ⟨0, _⟩ => rfl | ⟨1, _⟩ => rfl | ⟨2, _⟩ => rfl | ⟨3, _⟩ => rfl)
    have er : ridx_main_v9 (ix4 b h n m) k = ix4 b h m k := funext fun a => Fin.ext (by match a with | ⟨0, _⟩ => rfl | ⟨1, _⟩ => rfl | ⟨2, _⟩ => rfl | ⟨3, _⟩ => rfl)
    rw [el, er, v4_eq, v6_eq]
  have h10 : val_main_v10 (F := Ideal) (ix4 b h n m) = scale := (val_main_v10_apply _).trans rfl
  rw [h9, h10]
  rfl

/-- The row maximum at (b, h, n): the fold of max from -∞ over the row, and the further max with -∞ changes nothing. -/
theorem v14_eq (b : Fin 2) (h : Fin 8) (n : Fin 4096) :
    val_main_v14 (F := Ideal) x0 x1 (ix3 b h n) = rowmax (S x0 x1 b h n) := by
  refine (val_main_v14_apply _ _ _).trans ?_
  have h13 : val_main_v13 (F := Ideal) (ix3 b h n) = negInf := (val_main_v13_apply _).trans rfl
  have hR : S2x8x4096x4096.Reduces [3] S2x8x4096 := by decide
  have h12 : val_main_v12 (F := Ideal) x0 x1 (ix3 b h n) = rowmax (S x0 x1 b h n) := by
    unfold val_main_v12
    rw [Host.reduce_eq_fold_single (FloatOps.maximumf (F := Ideal) (φ := .f32)) _ _
      reducesTo_S2x8x4096x4096_S2x8x4096_d3 hR h_S_]
    show (Finset.univ : Finset (Fin 4096)).fold max negInf
        (fun k => val_main_v11 (F := Ideal) x0 x1 (hR.lift (ix3 b h n) k))
      = (Finset.univ : Finset (Fin 4096)).fold max negInf (S x0 x1 b h n)
    refine Finset.fold_congr fun k _ => ?_
    have ek : hR.lift (ix3 b h n) k = ix4 b h n k := funext fun a => Fin.ext (by match a with | ⟨0, _⟩ => rfl | ⟨1, _⟩ => rfl | ⟨2, _⟩ => rfl | ⟨3, _⟩ => rfl)
    rw [ek]
    exact v11_eq x0 x1 b h n k
  rw [h13, h12]
  show max negInf (rowmax (S x0 x1 b h n)) = rowmax (S x0 x1 b h n)
  exact max_eq_right (by rw [negInf_eq_bot]; exact bot_le)

/-- The softmax numerator at (b, h, n, m). -/
theorem v18_eq (b : Fin 2) (h : Fin 8) (n m : Fin 4096) :
    val_main_v18 (F := Ideal) x0 x1 (ix4 b h n m) = pexp (S x0 x1 b h) n m := by
  refine (val_main_v18_apply _ _ _).trans ?_
  have h16 : val_main_v16 (F := Ideal) x0 x1 (ix4 b h n m) = rowmax (S x0 x1 b h n) := by
    refine (val_main_v16_apply _ _ _).trans ?_
    refine (val_main_v15_apply _ _ _).trans ?_
    have ei : idx_main_v15 (idx_main_v16 (ix4 b h n m)) = ix3 b h n := funext fun a => Fin.ext (by match a with | ⟨0, _⟩ => rfl | ⟨1, _⟩ => rfl | ⟨2, _⟩ => rfl)
    rw [ei]
    exact v14_eq x0 x1 b h n
  have h17 : val_main_v17 (F := Ideal) x0 x1 (ix4 b h n m) = S x0 x1 b h n m - rowmax (S x0 x1 b h n) := by
    refine (val_main_v17_apply _ _ _).trans ?_
    rw [v11_eq, h16]
    rfl
  rw [h17]
  rfl

/-- The softmax denominator at (b, h, n): the sum starts from the zero word. -/
theorem v19_eq (b : Fin 2) (h : Fin 8) (n : Fin 4096) :
    val_main_v19 (F := Ideal) x0 x1 (ix3 b h n) = lsum (S x0 x1 b h) n := by
  refine (val_main_v19_apply _ _ _).trans ?_
  have hc : ∀ j, val_main_cst_2 (F := Ideal) j = 0 := fun j => (val_main_cst_2_apply j).trans Ideal.ofBits_zero_f32
  rw [hc, zero_add]
  unfold lsum
  refine Finset.sum_congr rfl fun k _ => ?_
  have ei : idx_main_v19 (ix3 b h n) k = ix4 b h n k := funext fun a => Fin.ext (by match a with | ⟨0, _⟩ => rfl | ⟨1, _⟩ => rfl | ⟨2, _⟩ => rfl | ⟨3, _⟩ => rfl)
  rw [ei]
  exact v18_eq x0 x1 b h n k

/-- The normalised softmax weight at (b, h, n, m). -/
theorem v22_eq (b : Fin 2) (h : Fin 8) (n m : Fin 4096) :
    val_main_v22 (F := Ideal) x0 x1 (ix4 b h n m) = Ideal.div (pexp (S x0 x1 b h) n m) (lsum (S x0 x1 b h) n) := by
  refine (val_main_v22_apply _ _ _).trans ?_
  have h21 : val_main_v21 (F := Ideal) x0 x1 (ix4 b h n m) = lsum (S x0 x1 b h) n := by
    refine (val_main_v21_apply _ _ _).trans ?_
    refine (val_main_v20_apply _ _ _).trans ?_
    have ei : idx_main_v20 (idx_main_v21 (ix4 b h n m)) = ix3 b h n := funext fun a => Fin.ext (by match a with | ⟨0, _⟩ => rfl | ⟨1, _⟩ => rfl | ⟨2, _⟩ => rfl)
    rw [ei]
    exact v19_eq x0 x1 b h n
  rw [v18_eq, h21]
  rfl

/-- Attention of (b, h) at (n, e), normalised before the product with v. -/
theorem v23_eq (b : Fin 2) (h : Fin 8) (n : Fin 4096) (e : Fin 64) :
    val_main_v23 (F := Ideal) x0 x1 (ix4 b h n e)
      = attnEarly (qkv (X x0) (W x1) 0 b h) (qkv (X x0) (W x1) 1 b h) (qkv (X x0) (W x1) 2 b h) n e := by
  refine (val_main_v23_apply _ _ _).trans ?_
  unfold attnEarly
  refine Finset.sum_congr rfl fun k _ => ?_
  have el : lidx_main_v23 (ix4 b h n e) k = ix4 b h n k := funext fun a => Fin.ext (by match a with | ⟨0, _⟩ => rfl | ⟨1, _⟩ => rfl | ⟨2, _⟩ => rfl | ⟨3, _⟩ => rfl)
  have er : ridx_main_v23 (ix4 b h n e) k = ix4 b h k e := funext fun a => Fin.ext (by match a with | ⟨0, _⟩ => rfl | ⟨1, _⟩ => rfl | ⟨2, _⟩ => rfl | ⟨3, _⟩ => rfl)
  rw [el, er, v22_eq, v8_eq]

/-- The heads laid side by side: channel c of the model dimension is head c / 64 at head channel c % 64. -/
theorem v25_eq (b : Fin 2) (n : Fin 4096) (c : Fin 512) :
    val_main_v25 (F := Ideal) x0 x1 (ix3 b n c)
      = attnEarly (qkv (X x0) (W x1) 0 b ⟨c.val / 64, by have := c.isLt; omega⟩)
          (qkv (X x0) (W x1) 1 b ⟨c.val / 64, by have := c.isLt; omega⟩)
          (qkv (X x0) (W x1) 2 b ⟨c.val / 64, by have := c.isLt; omega⟩) n ⟨c.val % 64, Nat.mod_lt _ (by decide)⟩ := by
  refine (val_main_v25_apply _ _ _).trans ?_
  have e25 : idx_main_v25 (ix3 b n c)
      = ix4 b n (⟨c.val / 64, by have := c.isLt; omega⟩ : Fin 8) (⟨c.val % 64, Nat.mod_lt _ (by decide)⟩ : Fin 64) :=
    funext fun a => Fin.ext (by
      have := b.isLt; have := n.isLt; have := c.isLt
      match a with
      | ⟨0, _⟩ => show ((b.val * 4096 + n.val) * 512 + c.val) / 2097152 = b.val; omega
      | ⟨1, _⟩ => show ((b.val * 4096 + n.val) * 512 + c.val) / 512 % 4096 = n.val; omega
      | ⟨2, _⟩ => show ((b.val * 4096 + n.val) * 512 + c.val) / 64 % 8 = c.val / 64; omega
      | ⟨3, _⟩ => show ((b.val * 4096 + n.val) * 512 + c.val) % 64 = c.val % 64; omega)
  rw [e25]
  refine (val_main_v24_apply _ _ _).trans ?_
  have e24 : idx_main_v24 (ix4 b n (⟨c.val / 64, by have := c.isLt; omega⟩ : Fin 8) (⟨c.val % 64, Nat.mod_lt _ (by decide)⟩ : Fin 64))
      = ix4 b (⟨c.val / 64, by have := c.isLt; omega⟩ : Fin 8) n (⟨c.val % 64, Nat.mod_lt _ (by decide)⟩ : Fin 64) :=
    funext fun a => Fin.ext (by match a with | ⟨0, _⟩ => rfl | ⟨1, _⟩ => rfl | ⟨2, _⟩ => rfl | ⟨3, _⟩ => rfl)
  rw [e24]
  exact v23_eq x0 x1 b _ n _

/-- The reference's result at (b, n, d) is the layer with early normalisation and the one-product projection. -/
theorem ref_value
    (x0 : (⟨Cert.ReferenceIdeal.S2x4096x512, .f32⟩ : BufTy).Contents (Elt Ideal))
    (x1 : (⟨Cert.ReferenceIdeal.S1536x512, .f32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal))
    (b : Fin 2) (n : Fin 4096) (d : Fin 512) :
    Cert.ReferenceIdeal.Read.val_main_v29 (F := Ideal) x0 x1 x2 x3 (ValueIdx.ix3 b n d)
      = Cert.Attn.layerEarly (fun b n c => x0 (ValueIdx.ix3 b n c)) (fun d c => x1 (ValueIdx.ix2 d c))
          (fun d c => x2 (ValueIdx.ix2 d c)) (fun d => x3 (ValueIdx.ix1 d)) b n d := by
  refine (val_main_v29_apply _ _ _ _ _).trans ?_
  have h28 : val_main_v28 (F := Ideal) x3 (ix3 b n d) = x3 (ix1 d) := by
    refine (val_main_v28_apply _ _).trans ?_
    refine (val_main_v27_apply _ _).trans ?_
    exact congrArg x3 (funext fun a => Fin.ext (by match a with | ⟨0, _⟩ => rfl))
  have h26 : val_main_v26 (F := Ideal) x0 x1 x2 (ix3 b n d)
      = ∑ c : Fin 512, attnEarly (qkv (X x0) (W x1) 0 b ⟨c.val / 64, by have := c.isLt; omega⟩)
          (qkv (X x0) (W x1) 1 b ⟨c.val / 64, by have := c.isLt; omega⟩)
          (qkv (X x0) (W x1) 2 b ⟨c.val / 64, by have := c.isLt; omega⟩) n ⟨c.val % 64, Nat.mod_lt _ (by decide)⟩
          * x2 (ix2 d c) := by
    refine (val_main_v26_apply _ _ _ _).trans (Finset.sum_congr rfl fun k _ => ?_)
    have el : lidx_main_v26 (ix3 b n d) k = ix3 b n k := funext fun a => Fin.ext (by match a with | ⟨0, _⟩ => rfl | ⟨1, _⟩ => rfl | ⟨2, _⟩ => rfl)
    have er : ridx_main_v26 (ix3 b n d) k = ix2 d k := funext fun a => Fin.ext (by match a with | ⟨0, _⟩ => rfl | ⟨1, _⟩ => rfl)
    rw [el, er, v25_eq]
  rw [h26, h28]
  rfl

end Cert.RefBridge

end
-- ==== Proof.HostStretches.lean ====
/-
  Between the regions: what each stretch of host operations of the kernel program leaves in the buffers
  the next region reads (the two weight matrices cast and transposed before the first region; q, k, v with
  their batch and head axes merged before the second; the attention output with them split again and the
  bias as a row before the third), and that no stretch writes a buffer it does not name.
-/
import proofs.«406941_j3049426780465_3_alg».proof.Proof.Gen.KernelIdeal.Frame
import Idealize.ShloMosaic.Lib.StableHlo.Run
import Idealize.ShloMosaic.Lib.Tactic

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-! ## Before the first region: the weights cast and transposed; the other arguments untouched -/

theorem pre_wqkvT (U : Valuation τ sig (Elt F)) :
    after hostOps0 U (main_v1 : DevRef τ sig)
      = transpose S512x1536 [1, 0] (truncf .bf16 (U (main_arg1 : DevRef τ sig)) bitsLt_bf16_f32) transposes_S1536x512_S512x1536_1_0 := by
  after_results

theorem pre_wprojT (U : Valuation τ sig (Elt F)) :
    after hostOps0 U (main_v3 : DevRef τ sig)
      = transpose S512x512 [1, 0] (truncf .bf16 (U (main_arg2 : DevRef τ sig)) bitsLt_bf16_f32) transposes_S512x512_S512x512_1_0 := by
  after_results

theorem pre_x (U : Valuation τ sig (Elt F)) : after hostOps0 U (main_arg0 : DevRef τ sig) = U (main_arg0 : DevRef τ sig) := by
  after_results

theorem pre_bias (U : Valuation τ sig (Elt F)) : after hostOps0 U (main_arg3 : DevRef τ sig) = U (main_arg3 : DevRef τ sig) := by
  after_results

/-! ## Between the first and the second region: batch and head axes merged -/

theorem mid_q (U : Valuation τ sig (Elt F)) :
    after hostOps1 U (main_v5 : DevRef τ sig) = shapeCast S16x4096x64 (U (main_v4_0 : DevRef τ sig)) shapeCasts_S2x8x4096x64_S16x4096x64 := by
  after_results
  rfl

theorem mid_k (U : Valuation τ sig (Elt F)) :
    after hostOps1 U (main_v6 : DevRef τ sig) = shapeCast S16x4096x64 (U (main_v4_1 : DevRef τ sig)) shapeCasts_S2x8x4096x64_S16x4096x64 := by
  after_results
  rfl

theorem mid_v (U : Valuation τ sig (Elt F)) :
    after hostOps1 U (main_v7 : DevRef τ sig) = shapeCast S16x4096x64 (U (main_v4_2 : DevRef τ sig)) shapeCasts_S2x8x4096x64_S16x4096x64 := by
  after_results
  rfl

theorem mid_wprojT (U : Valuation τ sig (Elt F)) : after hostOps1 U (main_v3 : DevRef τ sig) = U (main_v3 : DevRef τ sig) := by
  after_results

theorem mid_bias (U : Valuation τ sig (Elt F)) : after hostOps1 U (main_arg3 : DevRef τ sig) = U (main_arg3 : DevRef τ sig) := by
  after_results

/-! ## Between the second and the third region: the axes split again, the bias as a row -/

theorem post_o (U : Valuation τ sig (Elt F)) :
    after hostOps2 U (main_v9 : DevRef τ sig) = shapeCast S2x8x4096x64 (U (main_v8 : DevRef τ sig)) shapeCasts_S16x4096x64_S2x8x4096x64 := by
  after_results
  rfl

theorem post_bias (U : Valuation τ sig (Elt F)) :
    after hostOps2 U (main_v10 : DevRef τ sig) = shapeCast S1x512 (U (main_arg3 : DevRef τ sig)) shapeCasts_S512_S1x512 := by
  after_results
  rfl

theorem post_wprojT (U : Valuation τ sig (Elt F)) : after hostOps2 U (main_v3 : DevRef τ sig) = U (main_v3 : DevRef τ sig) := by
  after_results

end Cert.KernelIdeal.Host

end
-- ==== Proof.KernelValue.lean ====
/-
  The kernel program's result as ONE function of its four arguments.
  Each region's output array is a function of the arrays the region reads (hypotheses hq, hk, hv, ho, hout
  below: the fused projection's three outputs, the attention output, the projected result); between the
  regions the host only relabels axes (batch·8 + head merged and split again) and transposes the two weight
  matrices. Read through that, the result at (b, n, d) is the layer with late normalisation and the chained
  projection of the launched x, w_qkv, w_proj and bias.
-/
import proofs.«406941_j3049426780465_3_alg».proof.Proof.Gen.KernelIdeal.Frame
import proofs.«406941_j3049426780465_3_alg».proof.Proof.Spec
import proofs.«406941_j3049426780465_3_alg».proof.Proof.HostStretches
import Idealize.ShloMosaic.Lib.Pipeline.Value
import Idealize.ShloMosaic.Lib.ValueIdx

set_option maxRecDepth 16384

noncomputable section

namespace Cert.KernelIdeal.KV

open Cert.KernelIdeal Cert.KernelIdeal.Gen Idealize.ShloMosaic Idealize.ShloMosaic.TcCoe Idealize.SL.Sem Cert.Attn

variable (m : (ℓ : Loc nD τ sig) → Buf (Elt Ideal) ℓ) (ρ : Dev nD → PrngReg)

/-! ## The arguments as launched, by coordinates -/

abbrev X (c : Dev nD) : Fin 2 → Fin 4096 → Fin 512 → EReal :=
  fun b n cc => (m ((c : Thread nD τ).loc main_arg0) : S2x4096x512.Idx → EReal) (ValueIdx.ix3 b n cc)
abbrev Wq (c : Dev nD) : Fin 1536 → Fin 512 → EReal :=
  fun d cc => (m ((c : Thread nD τ).loc main_arg1) : S1536x512.Idx → EReal) (ValueIdx.ix2 d cc)
abbrev Wp (c : Dev nD) : Fin 512 → Fin 512 → EReal :=
  fun d cc => (m ((c : Thread nD τ).loc main_arg2) : S512x512.Idx → EReal) (ValueIdx.ix2 d cc)
abbrev Bs (c : Dev nD) : Fin 512 → EReal :=
  fun d => (m ((c : Thread nD τ).loc main_arg3) : S512.Idx → EReal) (ValueIdx.ix1 d)

/-! ## The arrays a region reads, at their literal types -/

section
variable (V : (c : Dev nD) → (b : Ref sig .tc) → Buf (Elt Ideal) ((c : Thread nD τ).loc b))
abbrev rdX (c : Dev nD) : S2x4096x512.Idx → EReal := V c main_arg0
abbrev rdWt (c : Dev nD) : S512x1536.Idx → EReal := V c main_v1
abbrev rdQ (c : Dev nD) : S16x4096x64.Idx → EReal := V c main_v5
abbrev rdK (c : Dev nD) : S16x4096x64.Idx → EReal := V c main_v6
abbrev rdV (c : Dev nD) : S16x4096x64.Idx → EReal := V c main_v7
abbrev rdO (c : Dev nD) : S2x8x4096x64.Idx → EReal := V c main_v9
abbrev rdWp (c : Dev nD) : S512x512.Idx → EReal := V c main_v3
abbrev rdB (c : Dev nD) : S1x512.Idx → EReal := V c main_v10
end

/-- The merged batch·head index. -/
def gh (b : Fin 2) (h : Fin 8) : Fin 16 := ⟨b.val * 8 + h.val, by have := b.isLt; have := h.isLt; omega⟩

/-! ## What the first region reads -/

theorem in0_x (c : Dev nD) (b : Fin 2) (n : Fin 4096) (cc : Fin 512) :
    rdX (V1 m ρ) c (ValueIdx.ix3 b n cc) = X m c b n cc :=
  congrFun (Host.pre_x (W0 m ρ c)) _

theorem in0_w (c : Dev nD) (cc : Fin 512) (d : Fin 1536) :
    rdWt (V1 m ρ) c (ValueIdx.ix2 cc d) = Wq m c d cc := by
  refine (congrFun (Host.pre_wqkvT (W0 m ρ c)) (ValueIdx.ix2 cc d)).trans ?_
  exact transpose_apply [1, 0] _ transposes_S1536x512_S512x1536_1_0 (ValueIdx.ix2 cc d) (ValueIdx.ix2 d cc)
    (fun b => match b with | ⟨0, _⟩ => rfl | ⟨1, _⟩ => rfl)

/-! ## What the second region reads: q, k, v of head h of batch b, at the merged index -/

theorem in1_q (hq : ∀ (V : (c : Dev nD) → (b : Ref sig .tc) → Buf (Elt Ideal) ((c : Thread nD τ).loc b)) (c : Dev nD) (b : Fin 2) (h : Fin 8) (n : Fin 4096) (e : Fin 64),
      ((dat0 V c).arrAt 2 cfg0.N : S2x8x4096x64.Idx → EReal) (ValueIdx.ix4 b h n e)
        = ∑ cc : Fin 512, rdX V c (ValueIdx.ix3 b n cc) * rdWt V c (ValueIdx.ix2 cc (hcol 0 h e)))
    (c : Dev nD) (b : Fin 2) (h : Fin 8) (n : Fin 4096) (e : Fin 64) :
    rdQ (V3 m ρ) c (ValueIdx.ix3 (gh b h) n e) = qkv (X m c) (Wq m c) 0 b h n e := by
  refine (congrFun (Host.mid_q (W2 m ρ c)) (ValueIdx.ix3 (gh b h) n e)).trans ?_
  refine (shapeCast_apply _ shapeCasts_S2x8x4096x64_S16x4096x64 (ValueIdx.ix3 (gh b h) n e) (ValueIdx.ix4 b h n e) ?_).trans ?_
  · rewrite [Shape.rowMajor_val_four, Shape.rowMajor_val_three]
    show ((b.val * 8 + h.val) * 4096 + n.val) * 64 + e.val = ((b.val * 8 + h.val) * 4096 + n.val) * 64 + e.val
    rfl
  · refine (congrFun (W2_arr m ρ c 2) (ValueIdx.ix4 b h n e)).trans ?_
    refine (hq (V1 m ρ) c b h n e).trans ?_
    show (∑ cc : Fin 512, rdX (V1 m ρ) c (ValueIdx.ix3 b n cc) * rdWt (V1 m ρ) c (ValueIdx.ix2 cc (hcol 0 h e)) : EReal)
      = ∑ cc : Fin 512, X m c b n cc * Wq m c (hcol 0 h e) cc
    exact Finset.sum_congr rfl fun cc _ => by rw [in0_x, in0_w]

theorem in1_k (hk : ∀ (V : (c : Dev nD) → (b : Ref sig .tc) → Buf (Elt Ideal) ((c : Thread nD τ).loc b)) (c : Dev nD) (b : Fin 2) (h : Fin 8) (n : Fin 4096) (e : Fin 64),
      ((dat0 V c).arrAt 3 cfg0.N : S2x8x4096x64.Idx → EReal) (ValueIdx.ix4 b h n e)
        = ∑ cc : Fin 512, rdX V c (ValueIdx.ix3 b n cc) * rdWt V c (ValueIdx.ix2 cc (hcol 1 h e)))
    (c : Dev nD) (b : Fin 2) (h : Fin 8) (n : Fin 4096) (e : Fin 64) :
    rdK (V3 m ρ) c (ValueIdx.ix3 (gh b h) n e) = qkv (X m c) (Wq m c) 1 b h n e := by
  refine (congrFun (Host.mid_k (W2 m ρ c)) (ValueIdx.ix3 (gh b h) n e)).trans ?_
  refine (shapeCast_apply _ shapeCasts_S2x8x4096x64_S16x4096x64 (ValueIdx.ix3 (gh b h) n e) (ValueIdx.ix4 b h n e) ?_).trans ?_
  · rewrite [Shape.rowMajor_val_four, Shape.rowMajor_val_three]
    show ((b.val * 8 + h.val) * 4096 + n.val) * 64 + e.val = ((b.val * 8 + h.val) * 4096 + n.val) * 64 + e.val
    rfl
  · refine (congrFun (W2_arr m ρ c 3) (ValueIdx.ix4 b h n e)).trans ?_
    refine (hk (V1 m ρ) c b h n e).trans ?_
    show (∑ cc : Fin 512, rdX (V1 m ρ) c (ValueIdx.ix3 b n cc) * rdWt (V1 m ρ) c (ValueIdx.ix2 cc (hcol 1 h e)) : EReal)
      = ∑ cc : Fin 512, X m c b n cc * Wq m c (hcol 1 h e) cc
    exact Finset.sum_congr rfl fun cc _ => by rw [in0_x, in0_w]

theorem in1_v (hv : ∀ (V : (c : Dev nD) → (b : Ref sig .tc) → Buf (Elt Ideal) ((c : Thread nD τ).loc b)) (c : Dev nD) (b : Fin 2) (h : Fin 8) (n : Fin 4096) (e : Fin 64),
      ((dat0 V c).arrAt 4 cfg0.N : S2x8x4096x64.Idx → EReal) (ValueIdx.ix4 b h n e)
        = ∑ cc : Fin 512, rdX V c (ValueIdx.ix3 b n cc) * rdWt V c (ValueIdx.ix2 cc (hcol 2 h e)))
    (c : Dev nD) (b : Fin 2) (h : Fin 8) (n : Fin 4096) (e : Fin 64) :
    rdV (V3 m ρ) c (ValueIdx.ix3 (gh b h) n e) = qkv (X m c) (Wq m c) 2 b h n e := by
  refine (congrFun (Host.mid_v (W2 m ρ c)) (ValueIdx.ix3 (gh b h) n e)).trans ?_
  refine (shapeCast_apply _ shapeCasts_S2x8x4096x64_S16x4096x64 (ValueIdx.ix3 (gh b h) n e) (ValueIdx.ix4 b h n e) ?_).trans ?_
  · rewrite [Shape.rowMajor_val_four, Shape.rowMajor_val_three]
    show ((b.val * 8 + h.val) * 4096 + n.val) * 64 + e.val = ((b.val * 8 + h.val) * 4096 + n.val) * 64 + e.val
    rfl
  · refine (congrFun (W2_arr m ρ c 4) (ValueIdx.ix4 b h n e)).trans ?_
    refine (hv (V1 m ρ) c b h n e).trans ?_
    show (∑ cc : Fin 512, rdX (V1 m ρ) c (ValueIdx.ix3 b n cc) * rdWt (V1 m ρ) c (ValueIdx.ix2 cc (hcol 2 h e)) : EReal)
      = ∑ cc : Fin 512, X m c b n cc * Wq m c (hcol 2 h e) cc
    exact Finset.sum_congr rfl fun cc _ => by rw [in0_x, in0_w]

/-! ## What the third region reads: the attention output with the axes split again, the weights transposed, the bias as a row -/

theorem in2_o (hq : ∀ (V : (c : Dev nD) → (b : Ref sig .tc) → Buf (Elt Ideal) ((c : Thread nD τ).loc b)) (c : Dev nD) (b : Fin 2) (h : Fin 8) (n : Fin 4096) (e : Fin 64),
      ((dat0 V c).arrAt 2 cfg0.N : S2x8x4096x64.Idx → EReal) (ValueIdx.ix4 b h n e)
        = ∑ cc : Fin 512, rdX V c (ValueIdx.ix3 b n cc) * rdWt V c (ValueIdx.ix2 cc (hcol 0 h e)))
    (hk : ∀ (V : (c : Dev nD) → (b : Ref sig .tc) → Buf (Elt Ideal) ((c : Thread nD τ).loc b)) (c : Dev nD) (b : Fin 2) (h : Fin 8) (n : Fin 4096) (e : Fin 64),
      ((dat0 V c).arrAt 3 cfg0.N : S2x8x4096x64.Idx → EReal) (ValueIdx.ix4 b h n e)
        = ∑ cc : Fin 512, rdX V c (ValueIdx.ix3 b n cc) * rdWt V c (ValueIdx.ix2 cc (hcol 1 h e)))
    (hv : ∀ (V : (c : Dev nD) → (b : Ref sig .tc) → Buf (Elt Ideal) ((c : Thread nD τ).loc b)) (c : Dev nD) (b : Fin 2) (h : Fin 8) (n : Fin 4096) (e : Fin 64),
      ((dat0 V c).arrAt 4 cfg0.N : S2x8x4096x64.Idx → EReal) (ValueIdx.ix4 b h n e)
        = ∑ cc : Fin 512, rdX V c (ValueIdx.ix3 b n cc) * rdWt V c (ValueIdx.ix2 cc (hcol 2 h e)))
    (ho : ∀ (V : (c : Dev nD) → (b : Ref sig .tc) → Buf (Elt Ideal) ((c : Thread nD τ).loc b)) (c : Dev nD) (g : Fin 16) (n : Fin 4096) (e : Fin 64),
      ((dat1 V c).arrAt 3 cfg1.N : S16x4096x64.Idx → EReal) (ValueIdx.ix3 g n e)
        = attnLate (fun n e => rdQ V c (ValueIdx.ix3 g n e)) (fun n e => rdK V c (ValueIdx.ix3 g n e))
            (fun n e => rdV V c (ValueIdx.ix3 g n e)) n e)
    (c : Dev nD) (b : Fin 2) (h : Fin 8) (n : Fin 4096) (e : Fin 64) :
    rdO (V5 m ρ) c (ValueIdx.ix4 b h n e)
      = attnLate (qkv (X m c) (Wq m c) 0 b h) (qkv (X m c) (Wq m c) 1 b h) (qkv (X m c) (Wq m c) 2 b h) n e := by
  refine (congrFun (Host.post_o (W4 m ρ c)) (ValueIdx.ix4 b h n e)).trans ?_
  refine (shapeCast_apply _ shapeCasts_S16x4096x64_S2x8x4096x64 (ValueIdx.ix4 b h n e) (ValueIdx.ix3 (gh b h) n e) ?_).trans ?_
  · rewrite [Shape.rowMajor_val_four, Shape.rowMajor_val_three]
    show ((b.val * 8 + h.val) * 4096 + n.val) * 64 + e.val = ((b.val * 8 + h.val) * 4096 + n.val) * 64 + e.val
    rfl
  · refine (congrFun (W4_arr m ρ c 3) (ValueIdx.ix3 (gh b h) n e)).trans ?_
    refine (ho (V3 m ρ) c (gh b h) n e).trans ?_
    rw [show (fun n e => rdQ (V3 m ρ) c (ValueIdx.ix3 (gh b h) n e)) = qkv (X m c) (Wq m c) 0 b h
          from funext fun n' => funext fun e' => in1_q m ρ hq c b h n' e',
        show (fun n e => rdK (V3 m ρ) c (ValueIdx.ix3 (gh b h) n e)) = qkv (X m c) (Wq m c) 1 b h
          from funext fun n' => funext fun e' => in1_k m ρ hk c b h n' e',
        show (fun n e => rdV (V3 m ρ) c (ValueIdx.ix3 (gh b h) n e)) = qkv (X m c) (Wq m c) 2 b h
          from funext fun n' => funext fun e' => in1_v m ρ hv c b h n' e']

/-- The transposed projection weights reach the third region as the first host stretch wrote them: no region has
    them among its arrays and no later stretch writes them. -/
theorem wprojT_walk (c : Dev nD) : V5 m ρ c main_v3 = W1 m ρ c (main_v3 : DevRef τ sig) :=
  (Host.post_wprojT (W4 m ρ c)).trans ((W4_of_ne m ρ c main_v3 (by decide)).trans
    ((Host.mid_wprojT (W2 m ρ c)).trans (W2_of_ne m ρ c main_v3 (by decide))))

theorem in2_w (c : Dev nD) (cc : Fin 512) (d : Fin 512) :
    rdWp (V5 m ρ) c (ValueIdx.ix2 cc d) = Wp m c d cc := by
  refine (congrFun ((wprojT_walk m ρ c).trans (Host.pre_wprojT (W0 m ρ c))) (ValueIdx.ix2 cc d)).trans ?_
  exact transpose_apply [1, 0] _ transposes_S512x512_S512x512_1_0 (ValueIdx.ix2 cc d) (ValueIdx.ix2 d cc)
    (fun b => match b with | ⟨0, _⟩ => rfl | ⟨1, _⟩ => rfl)

/-- The bias reaches the third region's entry untouched. -/
theorem bias_eq (c : Dev nD) :
    W4 m ρ c (main_arg3 : DevRef τ sig) = m ((c : Thread nD τ).loc main_arg3) :=
  (W4_of_ne m ρ c main_arg3 (by decide)).trans ((Host.mid_bias (W2 m ρ c)).trans
    ((W2_of_ne m ρ c main_arg3 (by decide)).trans (Host.pre_bias (W0 m ρ c))))

theorem in2_b (c : Dev nD) (d : Fin 512) :
    rdB (V5 m ρ) c (ValueIdx.ix2 0 d) = Bs m c d := by
  refine (congrFun (Host.post_bias (W4 m ρ c)) (ValueIdx.ix2 0 d)).trans ?_
  refine (shapeCast_apply _ shapeCasts_S512_S1x512 (ValueIdx.ix2 0 d) (ValueIdx.ix1 d) ?_).trans ?_
  · rewrite [Shape.rowMajor_val_one, Shape.rowMajor_val_two]
    show d.val = 0 * 512 + d.val
    omega
  · exact congrFun (bias_eq m ρ c) (ValueIdx.ix1 d)

/-! ## The result -/

/-- The result array, at (b, n, d), is the layer with late normalisation and the chained projection of the
    launched arguments. -/
theorem result (hq : ∀ (V : (c : Dev nD) → (b : Ref sig .tc) → Buf (Elt Ideal) ((c : Thread nD τ).loc b)) (c : Dev nD) (b : Fin 2) (h : Fin 8) (n : Fin 4096) (e : Fin 64),
      ((dat0 V c).arrAt 2 cfg0.N : S2x8x4096x64.Idx → EReal) (ValueIdx.ix4 b h n e)
        = ∑ cc : Fin 512, rdX V c (ValueIdx.ix3 b n cc) * rdWt V c (ValueIdx.ix2 cc (hcol 0 h e)))
    (hk : ∀ (V : (c : Dev nD) → (b : Ref sig .tc) → Buf (Elt Ideal) ((c : Thread nD τ).loc b)) (c : Dev nD) (b : Fin 2) (h : Fin 8) (n : Fin 4096) (e : Fin 64),
      ((dat0 V c).arrAt 3 cfg0.N : S2x8x4096x64.Idx → EReal) (ValueIdx.ix4 b h n e)
        = ∑ cc : Fin 512, rdX V c (ValueIdx.ix3 b n cc) * rdWt V c (ValueIdx.ix2 cc (hcol 1 h e)))
    (hv : ∀ (V : (c : Dev nD) → (b : Ref sig .tc) → Buf (Elt Ideal) ((c : Thread nD τ).loc b)) (c : Dev nD) (b : Fin 2) (h : Fin 8) (n : Fin 4096) (e : Fin 64),
      ((dat0 V c).arrAt 4 cfg0.N : S2x8x4096x64.Idx → EReal) (ValueIdx.ix4 b h n e)
        = ∑ cc : Fin 512, rdX V c (ValueIdx.ix3 b n cc) * rdWt V c (ValueIdx.ix2 cc (hcol 2 h e)))
    (ho : ∀ (V : (c : Dev nD) → (b : Ref sig .tc) → Buf (Elt Ideal) ((c : Thread nD τ).loc b)) (c : Dev nD) (g : Fin 16) (n : Fin 4096) (e : Fin 64),
      ((dat1 V c).arrAt 3 cfg1.N : S16x4096x64.Idx → EReal) (ValueIdx.ix3 g n e)
        = attnLate (fun n e => rdQ V c (ValueIdx.ix3 g n e)) (fun n e => rdK V c (ValueIdx.ix3 g n e))
            (fun n e => rdV V c (ValueIdx.ix3 g n e)) n e)
    (hout : ∀ (V : (c : Dev nD) → (b : Ref sig .tc) → Buf (Elt Ideal) ((c : Thread nD τ).loc b)) (c : Dev nD) (b : Fin 2) (n : Fin 4096) (d : Fin 512),
      ((dat2 V c).arrAt 3 cfg2.N : S2x4096x512.Idx → EReal) (ValueIdx.ix3 b n d)
        = projChain (fun h n e => rdO V c (ValueIdx.ix4 b h n e)) (fun d c' => rdWp V c (ValueIdx.ix2 c' d))
            (fun d => rdB V c (ValueIdx.ix2 0 d)) n d)
    (c : Dev nD) (b : Fin 2) (n : Fin 4096) (d : Fin 512) :
    (W6 m ρ c (main_v11 : DevRef τ sig) : S2x4096x512.Idx → EReal) (ValueIdx.ix3 b n d)
      = layerLate (X m c) (Wq m c) (Wp m c) (Bs m c) b n d := by
  refine (congrFun (W6_arr m ρ c 3) (ValueIdx.ix3 b n d)).trans ?_
  refine (hout (V5 m ρ) c b n d).trans ?_
  unfold layerLate
  rw [show (fun h n e => rdO (V5 m ρ) c (ValueIdx.ix4 b h n e))
          = (fun h => attnLate (qkv (X m c) (Wq m c) 0 b h) (qkv (X m c) (Wq m c) 1 b h) (qkv (X m c) (Wq m c) 2 b h))
        from funext fun h' => funext fun n' => funext fun e' => in2_o m ρ hq hk hv ho c b h' n' e',
      show (fun d c' => rdWp (V5 m ρ) c (ValueIdx.ix2 c' d)) = Wp m c
        from funext fun d' => funext fun c' => in2_w m ρ c c' d',
      show (fun d => rdB (V5 m ρ) c (ValueIdx.ix2 0 d)) = Bs m c
        from funext fun d' => in2_b m ρ c d']

end Cert.KernelIdeal.KV

end
-- ==== Proof.Region0.lean ====
/-
  Region 0, the fused q/k/v projection: what each of its three output arrays holds when the region ends, index by
  index, as a function of the arrays it found on entry. At every grid point (b, i) the body multiplies rows
  i·1024 … i·1024 + 1023 of batch b of x (a [1024, 512] block) by the [512, 1536] weights, and stores, for each head
  h < 8, columns t·512 + h·64 … t·512 + h·64 + 63 of the product at head h of output t (t = 0, 1, 2 for q, k, v). So
  array t at (b, h, n, e) is the sum over c < 512 of x(b, n, c) · w(c, t·512 + h·64 + e).
-/
import proofs.«406941_j3049426780465_3_alg».proof.Proof.Gen.KernelIdeal.Frame
import proofs.«406941_j3049426780465_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen Idealize.ShloMosaic Idealize.ShloMosaic.TcCoe Idealize.SL.Sem Cert.Attn
open Idealize.ShloMosaic.Pipeline (Dat)

/-! ## The product at an index -/

/-- The four coordinate facts of the [1024,512] × [512,1536] product's operand indices: the left operand is read at
    (row, k), the right at (k, column). -/

theorem lhs_acc_0 (i : S1024x1536.Idx) (q : dot_S1024x512_S512x1536_S1024x1536_1_0_0_1_n_n.contr.Idx) :
    (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
theorem lhs_acc_1 (i : S1024x1536.Idx) (q : dot_S1024x512_S512x1536_S1024x1536_1_0_0_1_n_n.contr.Idx) :
    (dot_S1024x512_S512x1536_S1024x1536_1_0_0_1_n_n.lhsIdx i q 1).val = (q ⟨0, by decide⟩).val :=
  dot_S1024x512_S512x1536_S1024x1536_1_0_0_1_n_n.lhsIdx_val_of_single rfl i q
theorem rhs_acc_0 (i : S1024x1536.Idx) (q : dot_S1024x512_S512x1536_S1024x1536_1_0_0_1_n_n.contr.Idx) :
    (dot_S1024x512_S512x1536_S1024x1536_1_0_0_1_n_n.rhsIdx i q 0).val = (q ⟨0, by decide⟩).val :=
  dot_S1024x512_S512x1536_S1024x1536_1_0_0_1_n_n.rhsIdx_val_of_single rfl i q
theorem rhs_acc_1 (i : S1024x1536.Idx) (q : dot_S1024x512_S512x1536_S1024x1536_1_0_0_1_n_n.contr.Idx) :
    (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

/-- The accumulator at (r, d): row r of the x block times column d of the weights. -/
theorem acc_apply (x : S1x1024x512.Idx → EReal) (w : S512x1536.Idx → EReal) (r : Fin 1024) (d : Fin 1536) :
    k0_pay7 (F := Ideal) x w (ValueIdx.ix2 r d) = ∑ cc : Fin 512, x (ValueIdx.ix3 0 r cc) * w (ValueIdx.ix2 cc d) := by
  unfold k0_pay7
  rw [ValueIdx.truncf_apply, shapeCast_self]
  unfold matmul
  rw [Ideal.matmul_constant_zero_apply, ← Equiv.sum_comp (ValueIdx.contrEquiv1 dot_S1024x512_S512x1536_S1024x1536_1_0_0_1_n_n 512 rfl rfl).symm]
  refine Finset.sum_congr rfl fun k _ => ?_
  have hk := ValueIdx.contrEquiv1_symm_val dot_S1024x512_S512x1536_S1024x1536_1_0_0_1_n_n 512 rfl rfl k
  rw [ValueIdx.truncf_apply]
  have el : dot_S1024x512_S512x1536_S1024x1536_1_0_0_1_n_n.lhsIdx (ValueIdx.ix2 r d) ((ValueIdx.contrEquiv1 dot_S1024x512_S512x1536_S1024x1536_1_0_0_1_n_n 512 rfl rfl).symm k) = ValueIdx.ix2 r k := funext fun a => Fin.ext (by
    match a with
    | ⟨0, _⟩ => exact lhs_acc_0 _ _
    | ⟨1, _⟩ => exact (lhs_acc_1 _ _).trans hk)
  have er : dot_S1024x512_S512x1536_S1024x1536_1_0_0_1_n_n.rhsIdx (ValueIdx.ix2 r d) ((ValueIdx.contrEquiv1 dot_S1024x512_S512x1536_S1024x1536_1_0_0_1_n_n 512 rfl rfl).symm k) = ValueIdx.ix2 k d := funext fun a => Fin.ext (by
    match a with
    | ⟨0, _⟩ => exact (rhs_acc_0 _ _).trans hk
    | ⟨1, _⟩ => exact rhs_acc_1 _ _)
  rw [el, er]
  congr 1
  refine shapeCast_apply x _ (ValueIdx.ix2 r k) (ValueIdx.ix3 0 r k) ?_
  rw [Shape.rowMajor_val_three, Shape.rowMajor_val_two]
  show ((0 : ℕ) * 1024 + r.val) * 512 + k.val = r.val * 512 + k.val
  omega

/-! ## One store's payload at an index -/
/-- A 64-column slice of a [1024,1536] value, cast to [1,1,1024,64], read at an index. -/
theorem slice_cast_apply {α : Type} (o : Nat) (ho : o + 64 ≤ 1536) (v : S1024x1536.Idx → α) (hs : S1024x1536.Slices ![0, o] S1024x64)
    (hc : S1024x64.ShapeCasts S1x1x1024x64) (j : S1x1x1024x64.Idx) :
    shapeCast S1x1x1024x64 (extractStridedSlice S1024x64 ![0, o] v hs) hc j
      = v (ValueIdx.ix2 ⟨(j 2).val, (j 2).isLt⟩ ⟨o + (j 3).val, by have := (j 3).isLt; have : (j 3).val < 64 := this; omega⟩) := by
  have h0 : (j 0).val < 1 := (j 0).isLt
  have h1 : (j 1).val < 1 := (j 1).isLt
  have h2 : (j 2).val < 1024 := (j 2).isLt
  have h3 : (j 3).val < 64 := (j 3).isLt
  refine (shapeCast_apply _ hc j (ValueIdx.ix2 ⟨(j 2).val, h2⟩ ⟨(j 3).val, h3⟩) ?_).trans ?_
  · rw [Shape.rowMajor_val_four, Shape.rowMajor_val_two]
    show (j 2).val * 64 + (j 3).val = (((j 0).val * 1 + (j 1).val) * 1024 + (j 2).val) * 64 + (j 3).val
    omega
  · refine extractStridedSlice_apply _ v hs _ _ fun a => ?_
    match a with
    | ⟨0, _⟩ => show (j 2).val = 0 + (j 2).val; omega
    | ⟨1, _⟩ => rfl

/-! ## The three staging buffers after the body -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the eight stores of column block t (0: q, 1: k, 2: v) leave in a [1,8,1024,64] staging buffer: at head h, row r,
    channel e, row r of the x block times column t·512 + h·64 + e of the weights. -/
def blockOf (t : Fin 3) (x : S1x1024x512.Idx → EReal) (w : S512x1536.Idx → EReal) : S1x8x1024x64.Idx → EReal :=
  fun y => ∑ cc : Fin 512, x (ValueIdx.ix3 0 ⟨(y 2).val, (y 2).isLt⟩ cc)
    * w (ValueIdx.ix2 cc (hcol t ⟨(y 1).val, (y 1).isLt⟩ ⟨(y 3).val, (y 3).isLt⟩))

/-- One store: the 64 columns from o = t·512 + k·64 of the accumulator, stored at head k, are the block function there. -/
theorem piece_ok (t : Fin 3) (k : Nat) (hk : k < 8) (o : Nat) (ho : o = t.val * 512 + k * 64)
    (x : S1x1024x512.Idx → EReal) (w : S512x1536.Idx → EReal)
    (hs : S1024x1536.Slices ![0, o] S1024x64) (hc : S1024x64.ShapeCasts S1x1x1024x64)
    (inb : ∀ a, (![0, k, 0, 0] : Fin 4 → Nat) a + S1x1x1024x64.size a ≤ S1x8x1024x64.size a) (j : S1x1x1024x64.Idx) :
    shapeCast S1x1x1024x64 (extractStridedSlice S1024x64 ![0, o] (k0_pay7 (F := Ideal) x w) hs) hc j
      = blockOf t x w ((Rect.unit (s := S1x8x1024x64) ![0, k, 0, 0] S1x1x1024x64.size inb).emb j) := by
  have h0 : (j 0).val < 1 := (j 0).isLt
  have h1 : (j 1).val < 1 := (j 1).isLt
  have h2 : (j 2).val < 1024 := (j 2).isLt
  have h3 : (j 3).val < 64 := (j 3).isLt
  have ht := t.isLt
  rw [slice_cast_apply o (by omega), acc_apply]
  unfold blockOf
  refine Finset.sum_congr rfl fun cc _ => ?_
  congr 2
  · refine congrArg (fun r => ValueIdx.ix3 0 r cc) (Fin.ext ?_)
    show (j 2).val = 0 + 1 * (j 2).val
    omega
  · refine congrArg (fun d => ValueIdx.ix2 cc d) (Fin.ext ?_)
    show o + (j 3).val = t.val * 512 + (k + 1 * (j 1).val) * 64 + (0 + 1 * (j 3).val)
    omega

/-- Window 2's staging buffer after the body is the block function of column block 0 of the two input blocks. -/
theorem out_q_eq (x : S1x1024x512.Idx → EReal) (w : S512x1536.Idx → EReal) : out0_2 (F := Ideal) x w = blockOf 0 x w := by
  funext y
  unfold out0_2
  simp only [View.ld_unit_zero (S := S1x1024x512) hz3, View.ld_unit_zero (S := S512x1536) hz2]
  refine View.canon_apply_of_pieces (Val := Elt Ideal) (blockOf 0 x w) _ ?_ y (cover0_2 _ _ _ _ _ _ _ _ y)
  intro p hp j
  simp only [List.mem_cons, List.not_mem_nil, or_false] at hp
  rcases hp with rfl | rfl | rfl | rfl | rfl | rfl | rfl | rfl
  · exact piece_ok 0 7 (by omega) 448 rfl x w slices_S1024x1536_o0_448_S1024x64 shapeCasts_S1024x64_S1x1x1024x64 inb_S1x8x1024x64_S1x1x1024x64_0_7_0_0 j
  · exact piece_ok 0 6 (by omega) 384 rfl x w slices_S1024x1536_o0_384_S1024x64 shapeCasts_S1024x64_S1x1x1024x64 inb_S1x8x1024x64_S1x1x1024x64_0_6_0_0 j
  · exact piece_ok 0 5 (by omega) 320 rfl x w slices_S1024x1536_o0_320_S1024x64 shapeCasts_S1024x64_S1x1x1024x64 inb_S1x8x1024x64_S1x1x1024x64_0_5_0_0 j
  · exact piece_ok 0 4 (by omega) 256 rfl x w slices_S1024x1536_o0_256_S1024x64 shapeCasts_S1024x64_S1x1x1024x64 inb_S1x8x1024x64_S1x1x1024x64_0_4_0_0 j
  · exact piece_ok 0 3 (by omega) 192 rfl x w slices_S1024x1536_o0_192_S1024x64 shapeCasts_S1024x64_S1x1x1024x64 inb_S1x8x1024x64_S1x1x1024x64_0_3_0_0 j
  · exact piece_ok 0 2 (by omega) 128 rfl x w slices_S1024x1536_o0_128_S1024x64 shapeCasts_S1024x64_S1x1x1024x64 inb_S1x8x1024x64_S1x1x1024x64_0_2_0_0 j
  · exact piece_ok 0 1 (by omega) 64 rfl x w slices_S1024x1536_o0_64_S1024x64 shapeCasts_S1024x64_S1x1x1024x64 inb_S1x8x1024x64_S1x1x1024x64_0_1_0_0 j
  · exact piece_ok 0 0 (by omega) 0 rfl x w slices_S1024x1536_o0_0_S1024x64 shapeCasts_S1024x64_S1x1x1024x64 inb_S1x8x1024x64_S1x1x1024x64_0_0_0_0 j

/-- Window 3's staging buffer after the body is the block function of column block 1 of the two input blocks. -/
theorem out_k_eq (x : S1x1024x512.Idx → EReal) (w : S512x1536.Idx → EReal) : out0_3 (F := Ideal) x w = blockOf 1 x w := by
  funext y
  unfold out0_3
  simp only [View.ld_unit_zero (S := S1x1024x512) hz3, View.ld_unit_zero (S := S512x1536) hz2]
  refine View.canon_apply_of_pieces (Val := Elt Ideal) (blockOf 1 x w) _ ?_ y (cover0_3 _ _ _ _ _ _ _ _ y)
  intro p hp j
  simp only [List.mem_cons, List.not_mem_nil, or_false] at hp
  rcases hp with rfl | rfl | rfl | rfl | rfl | rfl | rfl | rfl
  · exact piece_ok 1 7 (by omega) 960 rfl x w slices_S1024x1536_o0_960_S1024x64 shapeCasts_S1024x64_S1x1x1024x64 inb_S1x8x1024x64_S1x1x1024x64_0_7_0_0 j
  · exact piece_ok 1 6 (by omega) 896 rfl x w slices_S1024x1536_o0_896_S1024x64 shapeCasts_S1024x64_S1x1x1024x64 inb_S1x8x1024x64_S1x1x1024x64_0_6_0_0 j
  · exact piece_ok 1 5 (by omega) 832 rfl x w slices_S1024x1536_o0_832_S1024x64 shapeCasts_S1024x64_S1x1x1024x64 inb_S1x8x1024x64_S1x1x1024x64_0_5_0_0 j
  · exact piece_ok 1 4 (by omega) 768 rfl x w slices_S1024x1536_o0_768_S1024x64 shapeCasts_S1024x64_S1x1x1024x64 inb_S1x8x1024x64_S1x1x1024x64_0_4_0_0 j
  · exact piece_ok 1 3 (by omega) 704 rfl x w slices_S1024x1536_o0_704_S1024x64 shapeCasts_S1024x64_S1x1x1024x64 inb_S1x8x1024x64_S1x1x1024x64_0_3_0_0 j
  · exact piece_ok 1 2 (by omega) 640 rfl x w slices_S1024x1536_o0_640_S1024x64 shapeCasts_S1024x64_S1x1x1024x64 inb_S1x8x1024x64_S1x1x1024x64_0_2_0_0 j
  · exact piece_ok 1 1 (by omega) 576 rfl x w slices_S1024x1536_o0_576_S1024x64 shapeCasts_S1024x64_S1x1x1024x64 inb_S1x8x1024x64_S1x1x1024x64_0_1_0_0 j
  · exact piece_ok 1 0 (by omega) 512 rfl x w slices_S1024x1536_o0_512_S1024x64 shapeCasts_S1024x64_S1x1x1024x64 inb_S1x8x1024x64_S1x1x1024x64_0_0_0_0 j

/-- Window 4's staging buffer after the body is the block function of column block 2 of the two input blocks. -/
theorem out_v_eq (x : S1x1024x512.Idx → EReal) (w : S512x1536.Idx → EReal) : out0_4 (F := Ideal) x w = blockOf 2 x w := by
  funext y
  unfold out0_4
  simp only [View.ld_unit_zero (S := S1x1024x512) hz3, View.ld_unit_zero (S := S512x1536) hz2]
  refine View.canon_apply_of_pieces (Val := Elt Ideal) (blockOf 2 x w) _ ?_ y (cover0_4 _ _ _ _ _ _ _ _ y)
  intro p hp j
  simp only [List.mem_cons, List.not_mem_nil, or_false] at hp
  rcases hp with rfl | rfl | rfl | rfl | rfl | rfl | rfl | rfl
  · exact piece_ok 2 7 (by omega) 1472 rfl x w slices_S1024x1536_o0_1472_S1024x64 shapeCasts_S1024x64_S1x1x1024x64 inb_S1x8x1024x64_S1x1x1024x64_0_7_0_0 j
  · exact piece_ok 2 6 (by omega) 1408 rfl x w slices_S1024x1536_o0_1408_S1024x64 shapeCasts_S1024x64_S1x1x1024x64 inb_S1x8x1024x64_S1x1x1024x64_0_6_0_0 j
  · exact piece_ok 2 5 (by omega) 1344 rfl x w slices_S1024x1536_o0_1344_S1024x64 shapeCasts_S1024x64_S1x1x1024x64 inb_S1x8x1024x64_S1x1x1024x64_0_5_0_0 j
  · exact piece_ok 2 4 (by omega) 1280 rfl x w slices_S1024x1536_o0_1280_S1024x64 shapeCasts_S1024x64_S1x1x1024x64 inb_S1x8x1024x64_S1x1x1024x64_0_4_0_0 j
  · exact piece_ok 2 3 (by omega) 1216 rfl x w slices_S1024x1536_o0_1216_S1024x64 shapeCasts_S1024x64_S1x1x1024x64 inb_S1x8x1024x64_S1x1x1024x64_0_3_0_0 j
  · exact piece_ok 2 2 (by omega) 1152 rfl x w slices_S1024x1536_o0_1152_S1024x64 shapeCasts_S1024x64_S1x1x1024x64 inb_S1x8x1024x64_S1x1x1024x64_0_2_0_0 j
  · exact piece_ok 2 1 (by omega) 1088 rfl x w slices_S1024x1536_o0_1088_S1024x64 shapeCasts_S1024x64_S1x1x1024x64 inb_S1x8x1024x64_S1x1x1024x64_0_1_0_0 j
  · exact piece_ok 2 0 (by omega) 1024 rfl x w slices_S1024x1536_o0_1024_S1024x64 shapeCasts_S1024x64_S1x1x1024x64 inb_S1x8x1024x64_S1x1x1024x64_0_0_0_0 j

/-! ## From blocks to the arrays -/

variable (V : (c : Dev nD) → (b : Ref sig .tc) → Buf (Elt Ideal) ((c : Thread nD τ).loc b))

abbrev aX (c : Dev nD) : S2x4096x512.Idx → EReal := V c main_arg0
abbrev aWt (c : Dev nD) : S512x1536.Idx → EReal := V c main_v1

/-- The array of column block t (0: q, 1: k, 2: v): at (b, h, n, e), row (b, n) of x times column t·512 + h·64 + e of
    the weights. -/
def arrOf (t3 : Fin 3) (c : Dev nD) : S2x8x4096x64.Idx → EReal :=
  fun i => ∑ cc : Fin 512, aX V c (ValueIdx.ix3 ⟨(i 0).val, (i 0).isLt⟩ ⟨(i 2).val, (i 2).isLt⟩ cc)
    * aWt V c (ValueIdx.ix2 cc (hcol t3 ⟨(i 1).val, (i 1).isLt⟩ ⟨(i 3).val, (i 3).isLt⟩))

/-- The index maps over the grid: the x window sits at block (b, i, 0), the weights at (0, 0), each output window at
    (b, 0, i, 0). -/
theorem idx_facts : ∀ t : Fin cfg0.N,
    win0_0.index t (2 : Fin 3) = 0 ∧ win0_1.index t (0 : Fin 2) = 0 ∧ win0_1.index t (1 : Fin 2) = 0
    ∧ win0_0.index t (0 : Fin 3) ≤ 1 ∧ win0_0.index t (1 : Fin 3) ≤ 3
    ∧ win0_2.index t (0 : Fin 4) = win0_0.index t (0 : Fin 3) ∧ win0_2.index t (1 : Fin 4) = 0
    ∧ win0_2.index t (2 : Fin 4) = win0_0.index t (1 : Fin 3) ∧ win0_2.index t (3 : Fin 4) = 0
    ∧ win0_3.index t (0 : Fin 4) = win0_0.index t (0 : Fin 3) ∧ win0_3.index t (1 : Fin 4) = 0
    ∧ win0_3.index t (2 : Fin 4) = win0_0.index t (1 : Fin 3) ∧ win0_3.index t (3 : Fin 4) = 0
    ∧ win0_4.index t (0 : Fin 4) = win0_0.index t (0 : Fin 3) ∧ win0_4.index t (1 : Fin 4) = 0
    ∧ win0_4.index t (2 : Fin 4) = win0_0.index t (1 : Fin 3) ∧ win0_4.index t (3 : Fin 4) = 0 :=
  (by decide +kernel : ∀ t : Fin grid0.N, _)

/-- The block function of the two input blocks at point t is the array function, read where the x block sits. -/
theorem block_read (t3 : Fin 3) (c : Dev nD) (t : Fin cfg0.N) (y : S1x8x1024x64.Idx) (i : S2x8x4096x64.Idx)
    (hi0 : (i 0).val = win0_0.index t (0 : Fin 3) * 1 + 1 * (y 0).val) (hi1 : (i 1).val = (y 1).val)
    (hi2 : (i 2).val = win0_0.index t (1 : Fin 3) * 1024 + 1 * (y 2).val) (hi3 : (i 3).val = (y 3).val) :
    blockOf t3 (iblk0 V c 0 t) (iblk0 V c 1 t) y = arrOf V t3 c i := by
  obtain ⟨f0, f1, f2, -⟩ := idx_facts t
  have hy0 : (y 0).val < 1 := (y 0).isLt
  unfold blockOf arrOf
  refine Finset.sum_congr rfl fun cc _ => ?_
  congr 1
  · show V c main_arg0 (((cfg0.win 0).blk t).view.emb (ValueIdx.ix3 0 ⟨(y 2).val, (y 2).isLt⟩ cc)) = V c main_arg0 _
    refine congrArg (V c main_arg0) (funext fun a => Fin.ext ?_)
    match a with
    | ⟨0, _⟩ => show win0_0.index t (0 : Fin 3) * 1 + 1 * 0 = (i 0).val; omega
    | ⟨1, _⟩ => show win0_0.index t (1 : Fin 3) * 1024 + 1 * (y 2).val = (i 2).val; omega
    | ⟨2, _⟩ => show win0_0.index t (2 : Fin 3) * 512 + 1 * cc.val = cc.val; omega
  · show V c main_v1 (((cfg0.win 1).blk t).view.emb (ValueIdx.ix2 cc (hcol t3 ⟨(y 1).val, (y 1).isLt⟩ ⟨(y 3).val, (y 3).isLt⟩))) = V c main_v1 _
    refine congrArg (V c main_v1) (funext fun a => Fin.ext ?_)
    match a with
    | ⟨0, _⟩ => show win0_1.index t (0 : Fin 2) * 512 + 1 * cc.val = cc.val; omega
    | ⟨1, _⟩ =>
      show win0_1.index t (1 : Fin 2) * 1536 + 1 * (t3.val * 512 + (y 1).val * 64 + (y 3).val) = t3.val * 512 + (i 1).val * 64 + (i 3).val
      omega

/-! ## q: output window 2 -/

/-- What point t writes back from window 2 is its block of the array function. -/
theorem flushed_q (c : Dev nD) (t : Fin cfg0.N) :
    (dat0 V c).flushed 2 t = ((cfg0.win 2).blk t).view.read (Elt Ideal) (arrOf V 0 c) := by
  show (cfg0.win 2).cut (grid0.coords t) ((dat0 V c).after 2 t) = _
  rw [after0_2]
  obtain ⟨-, -, -, -, -, f2_0, f2_1, f2_2, f2_3, -⟩ := idx_facts t
  funext y
  refine (congrFun (out_q_eq (iblk0 V c 0 t) (iblk0 V c 1 t)) _).trans ?_
  have hy1 : (y 1).val < 8 := (y 1).isLt
  have hy3 : (y 3).val < 64 := (y 3).isLt
  refine block_read V 0 c t _ (((cfg0.win 2).blk t).view.emb y) ?_ ?_ ?_ ?_
  · show win0_2.index t (0 : Fin 4) * 1 + 1 * (y 0).val = win0_0.index t (0 : Fin 3) * 1 + 1 * (y 0).val; omega
  · show win0_2.index t (1 : Fin 4) * 8 + 1 * (y 1).val = (y 1).val; omega
  · show win0_2.index t (2 : Fin 4) * 1024 + 1 * (y 2).val = win0_0.index t (1 : Fin 3) * 1024 + 1 * (y 2).val; omega
  · show win0_2.index t (3 : Fin 4) * 64 + 1 * (y 3).val = (y 3).val; omega

/-- Every block position (b, 0, i, 0) of window 2 is some point's. -/
theorem idx_onto_q : ∀ (q0 : Fin 2) (q2 : Fin 4), ∃ t : Fin cfg0.N, win0_2.index t = ![q0.val, 0, q2.val, 0] :=
  (by decide +kernel : ∀ (q0 : Fin 2) (q2 : Fin 4), ∃ t : Fin grid0.N, win0_2.index t = ![q0.val, 0, q2.val, 0])

/-- An index of the array is in point t's block of window 2 iff each coordinate is in the block's range on its axis. -/
theorem mem_blk_q (t : Fin cfg0.N) (i : S2x8x4096x64.Idx) :
    i ∈ ((cfg0.win 2).blk t).view.set ↔ ∀ a : Fin 4, win0_2.index t a * S1x8x1024x64.size a ≤ (i a).val ∧ (i a).val < win0_2.index t a * S1x8x1024x64.size a + S1x8x1024x64.size a := by
  show i ∈ ((View.whole main_v4_0).slice (win0_2.rect t)).set ↔ _
  rw [View.set_slice_whole, Rect.mem_set_unit]
  exact Iff.rfl

/-- Window 2's blocks cover its array: (b, h, n, e) is in the block of the point at (b, n / 1024). -/
theorem cover_q (i : S2x8x4096x64.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto_q ⟨(i 0).val, hi0⟩ ⟨(i 2).val / 1024, by omega⟩
  have q0 : win0_2.index t (0 : Fin 4) = (i 0).val := congrFun ht 0
  have q1 : win0_2.index t (1 : Fin 4) = 0 := congrFun ht 1
  have q2 : win0_2.index t (2 : Fin 4) = (i 2).val / 1024 := congrFun ht 2
  have q3 : win0_2.index t (3 : Fin 4) = 0 := congrFun ht 3
  refine ⟨t, flush0_2 t, ?_⟩
  rw [mem_blk_q]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 64 ≤ (i 3).val ∧ (i 3).val < win0_2.index t (3 : Fin 4) * 64 + 64; omega

/-- The array window 2 ends holding: column block 0 of the fused projection, head by head. -/
theorem arr_q (c : Dev nD) (b : Fin 2) (h : Fin 8) (n : Fin 4096) (e : Fin 64) :
    ((dat0 V c).arrAt 2 cfg0.N : S2x8x4096x64.Idx → EReal) (ValueIdx.ix4 b h n e)
      = ∑ cc : Fin 512, aX V c (ValueIdx.ix3 b n cc) * aWt V c (ValueIdx.ix2 cc (hcol 0 h e)) := by
  rw [(dat0 V c).arrAt_eq_of_cover 2 (arrOf V 0 c) (fun t _ => flushed_q V c t) cover_q]
  rfl

/-! ## k: output window 3 -/

/-- What point t writes back from window 3 is its block of the array function. -/
theorem flushed_k (c : Dev nD) (t : Fin cfg0.N) :
    (dat0 V c).flushed 3 t = ((cfg0.win 3).blk t).view.read (Elt Ideal) (arrOf V 1 c) := by
  show (cfg0.win 3).cut (grid0.coords t) ((dat0 V c).after 3 t) = _
  rw [after0_3]
  obtain ⟨-, -, -, -, -, -, -, -, -, f2_0, f2_1, f2_2, f2_3, -⟩ := idx_facts t
  funext y
  refine (congrFun (out_k_eq (iblk0 V c 0 t) (iblk0 V c 1 t)) _).trans ?_
  have hy1 : (y 1).val < 8 := (y 1).isLt
  have hy3 : (y 3).val < 64 := (y 3).isLt
  refine block_read V 1 c t _ (((cfg0.win 3).blk t).view.emb y) ?_ ?_ ?_ ?_
  · show win0_3.index t (0 : Fin 4) * 1 + 1 * (y 0).val = win0_0.index t (0 : Fin 3) * 1 + 1 * (y 0).val; omega
  · show win0_3.index t (1 : Fin 4) * 8 + 1 * (y 1).val = (y 1).val; omega
  · show win0_3.index t (2 : Fin 4) * 1024 + 1 * (y 2).val = win0_0.index t (1 : Fin 3) * 1024 + 1 * (y 2).val; omega
  · show win0_3.index t (3 : Fin 4) * 64 + 1 * (y 3).val = (y 3).val; omega

/-- Every block position (b, 0, i, 0) of window 3 is some point's. -/
theorem idx_onto_k : ∀ (q0 : Fin 2) (q2 : Fin 4), ∃ t : Fin cfg0.N, win0_3.index t = ![q0.val, 0, q2.val, 0] :=
  (by decide +kernel : ∀ (q0 : Fin 2) (q2 : Fin 4), ∃ t : Fin grid0.N, win0_3.index t = ![q0.val, 0, q2.val, 0])

/-- An index of the array is in point t's block of window 3 iff each coordinate is in the block's range on its axis. -/
theorem mem_blk_k (t : Fin cfg0.N) (i : S2x8x4096x64.Idx) :
    i ∈ ((cfg0.win 3).blk t).view.set ↔ ∀ a : Fin 4, win0_3.index t a * S1x8x1024x64.size a ≤ (i a).val ∧ (i a).val < win0_3.index t a * S1x8x1024x64.size a + S1x8x1024x64.size a := by
  show i ∈ ((View.whole main_v4_1).slice (win0_3.rect t)).set ↔ _
  rw [View.set_slice_whole, Rect.mem_set_unit]
  exact Iff.rfl

/-- Window 3's blocks cover its array: (b, h, n, e) is in the block of the point at (b, n / 1024). -/
theorem cover_k (i : S2x8x4096x64.Idx) : ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto_k ⟨(i 0).val, hi0⟩ ⟨(i 2).val / 1024, by omega⟩
  have q0 : win0_3.index t (0 : Fin 4) = (i 0).val := congrFun ht 0
  have q1 : win0_3.index t (1 : Fin 4) = 0 := congrFun ht 1
  have q2 : win0_3.index t (2 : Fin 4) = (i 2).val / 1024 := congrFun ht 2
  have q3 : win0_3.index t (3 : Fin 4) = 0 := congrFun ht 3
  refine ⟨t, flush0_3 t, ?_⟩
  rw [mem_blk_k]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- The array window 3 ends holding: column block 1 of the fused projection, head by head. -/
theorem arr_k (c : Dev nD) (b : Fin 2) (h : Fin 8) (n : Fin 4096) (e : Fin 64) :
    ((dat0 V c).arrAt 3 cfg0.N : S2x8x4096x64.Idx → EReal) (ValueIdx.ix4 b h n e)
      = ∑ cc : Fin 512, aX V c (ValueIdx.ix3 b n cc) * aWt V c (ValueIdx.ix2 cc (hcol 1 h e)) := by
  rw [(dat0 V c).arrAt_eq_of_cover 3 (arrOf V 1 c) (fun t _ => flushed_k V c t) cover_k]
  rfl

/-! ## v: output window 4 -/

/-- What point t writes back from window 4 is its block of the array function. -/
theorem flushed_v (c : Dev nD) (t : Fin cfg0.N) :
    (dat0 V c).flushed 4 t = ((cfg0.win 4).blk t).view.read (Elt Ideal) (arrOf V 2 c) := by
  show (cfg0.win 4).cut (grid0.coords t) ((dat0 V c).after 4 t) = _
  rw [after0_4]
  obtain ⟨-, -, -, -, -, -, -, -, -, -, -, -, -, f2_0, f2_1, f2_2, f2_3⟩ := idx_facts t
  funext y
  refine (congrFun (out_v_eq (iblk0 V c 0 t) (iblk0 V c 1 t)) _).trans ?_
  have hy1 : (y 1).val < 8 := (y 1).isLt
  have hy3 : (y 3).val < 64 := (y 3).isLt
  refine block_read V 2 c t _ (((cfg0.win 4).blk t).view.emb y) ?_ ?_ ?_ ?_
  · show win0_4.index t (0 : Fin 4) * 1 + 1 * (y 0).val = win0_0.index t (0 : Fin 3) * 1 + 1 * (y 0).val; omega
  · show win0_4.index t (1 : Fin 4) * 8 + 1 * (y 1).val = (y 1).val; omega
  · show win0_4.index t (2 : Fin 4) * 1024 + 1 * (y 2).val = win0_0.index t (1 : Fin 3) * 1024 + 1 * (y 2).val; omega
  · show win0_4.index t (3 : Fin 4) * 64 + 1 * (y 3).val = (y 3).val; omega

/-- Every block position (b, 0, i, 0) of window 4 is some point's. -/
theorem idx_onto_v : ∀ (q0 : Fin 2) (q2 : Fin 4), ∃ t : Fin cfg0.N, win0_4.index t = ![q0.val, 0, q2.val, 0] :=
  (by decide +kernel : ∀ (q0 : Fin 2) (q2 : Fin 4), ∃ t : Fin grid0.N, win0_4.index t = ![q0.val, 0, q2.val, 0])

/-- An index of the array is in point t's block of window 4 iff each coordinate is in the block's range on its axis. -/
theorem mem_blk_v (t : Fin cfg0.N) (i : S2x8x4096x64.Idx) :
    i ∈ ((cfg0.win 4).blk t).view.set ↔ ∀ a : Fin 4, win0_4.index t a * S1x8x1024x64.size a ≤ (i a).val ∧ (i a).val < win0_4.index t a * S1x8x1024x64.size a + S1x8x1024x64.size a := by
  show i ∈ ((View.whole main_v4_2).slice (win0_4.rect t)).set ↔ _
  rw [View.set_slice_whole, Rect.mem_set_unit]
  exact Iff.rfl

/-- Window 4's blocks cover its array: (b, h, n, e) is in the block of the point at (b, n / 1024). -/
theorem cover_v (i : S2x8x4096x64.Idx) : ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto_v ⟨(i 0).val, hi0⟩ ⟨(i 2).val / 1024, by omega⟩
  have q0 : win0_4.index t (0 : Fin 4) = (i 0).val := congrFun ht 0
  have q1 : win0_4.index t (1 : Fin 4) = 0 := congrFun ht 1
  have q2 : win0_4.index t (2 : Fin 4) = (i 2).val / 1024 := congrFun ht 2
  have q3 : win0_4.index t (3 : Fin 4) = 0 := congrFun ht 3
  refine ⟨t, flush0_4 t, ?_⟩
  rw [mem_blk_v]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- The array window 4 ends holding: column block 2 of the fused projection, head by head. -/
theorem arr_v (c : Dev nD) (b : Fin 2) (h : Fin 8) (n : Fin 4096) (e : Fin 64) :
    ((dat0 V c).arrAt 4 cfg0.N : S2x8x4096x64.Idx → EReal) (ValueIdx.ix4 b h n e)
      = ∑ cc : Fin 512, aX V c (ValueIdx.ix3 b n cc) * aWt V c (ValueIdx.ix2 cc (hcol 2 h e)) := by
  rw [(dat0 V c).arrAt_eq_of_cover 4 (arrOf V 2 c) (fun t _ => flushed_v V c t) cover_v]
  rfl

end Cert.KernelIdeal.R0

end
-- ==== Proof.Region1.lean ====
/-
  Region 1, the attention kernel: the array its output window ends holding, index by index, as a function of the three
  input arrays, over the extended reals. Each grid point (g, i) reads query rows i·256 … i·256 + 255 of the merged
  (batch, head) g together with all 4096 key and value rows of g, and writes the late-normalised attention of those query
  rows; the 256 points' blocks tile the [16, 4096, 64] output array, so the array at (g, n, e) is attnLate of g's slices
  of the three inputs at (n, e).
-/
import proofs.«406941_j3049426780465_3_alg».proof.Proof.Gen.KernelIdeal.Frame
import proofs.«406941_j3049426780465_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen Idealize.ShloMosaic Idealize.ShloMosaic.TcCoe Idealize.SL.Sem Cert.Attn
open Idealize.ShloMosaic.Pipeline (Dat)
open Idealize.ShloMosaic.ValueIdx

/-! ## One query row's attention -/

/-- The scaled scores of one query row against every key row. -/
def scoreRow (qrow : Fin 64 → EReal) (k : Fin 4096 → Fin 64 → EReal) (m : Fin 4096) : EReal :=
  (∑ e : Fin 64, qrow e * k m e) * scale

/-- The softmax numerators of one query row. -/
def pexpRow (qrow : Fin 64 → EReal) (k : Fin 4096 → Fin 64 → EReal) (m : Fin 4096) : EReal :=
  Ideal.exp (scoreRow qrow k m - rowmax (scoreRow qrow k))

/-- Attention of one query row, normalised after the product with v: it reads q only through that row. -/
def attnRow (qrow : Fin 64 → EReal) (k v : Fin 4096 → Fin 64 → EReal) (e : Fin 64) : EReal :=
  Ideal.div (∑ m : Fin 4096, pexpRow qrow k m * v m e) (∑ m : Fin 4096, pexpRow qrow k m)

/-- Late-normalised attention at row n is the row form at q's row n. -/
theorem attnLate_eq_attnRow (q k v : Fin 4096 → Fin 64 → EReal) (n : Fin 4096) (e : Fin 64) :
    attnLate q k v n e = attnRow (q n) k v e := rfl

/-! ## The two products read at an index -/

theorem qk_lhs_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem qk_lhs_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem qk_rhs_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem qk_rhs_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- The product q · kᵀ into zero, at (r, m): the sum over the 64 head channels. -/
theorem qk_apply (a : FVec Ideal S256x64 .bf16) (b : FVec Ideal S4096x64 .bf16) (r : Fin 256) (m : Fin 4096) :
    matmul dot_S256x64_S4096x64_S256x4096_1_1_0_0_n_n none a b (constant S256x4096 .f32 0x00000000#32) (ix2 r m)
      = ∑ e : Fin 64, a (ix2 r e) * b (ix2 m e) := by
  simp only [matmul]
  rw [Ideal.matmul_constant_zero_apply, ← Equiv.sum_comp (ValueIdx.contrEquiv1 dot_S256x64_S4096x64_S256x4096_1_1_0_0_n_n 64 rfl rfl).symm]
  refine Finset.sum_congr rfl fun k _ => ?_
  have hk := ValueIdx.contrEquiv1_symm_val dot_S256x64_S4096x64_S256x4096_1_1_0_0_n_n 64 rfl rfl k
  have el : dot_S256x64_S4096x64_S256x4096_1_1_0_0_n_n.lhsIdx (ix2 r m) ((ValueIdx.contrEquiv1 dot_S256x64_S4096x64_S256x4096_1_1_0_0_n_n 64 rfl rfl).symm k) = ix2 r k := funext fun ax => Fin.ext (by
    match ax with
    | ⟨0, _⟩ => exact qk_lhs_0 _ _
    | ⟨1, _⟩ => exact (qk_lhs_1 _ _).trans hk)
  have er : dot_S256x64_S4096x64_S256x4096_1_1_0_0_n_n.rhsIdx (ix2 r m) ((ValueIdx.contrEquiv1 dot_S256x64_S4096x64_S256x4096_1_1_0_0_n_n 64 rfl rfl).symm k) = ix2 m k := funext fun ax => Fin.ext (by
    match ax with
    | ⟨0, _⟩ => exact qk_rhs_0 _ _
    | ⟨1, _⟩ => exact (qk_rhs_1 _ _).trans hk)
  rw [el, er]

theorem pv_lhs_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem pv_lhs_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem pv_rhs_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem pv_rhs_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The product p · v into zero, at (r, e): the sum over the 4096 key positions. -/
theorem pv_apply (p : FVec Ideal S256x4096 .bf16) (v : FVec Ideal S4096x64 .bf16) (r : Fin 256) (e : Fin 64) :
    matmul dot_S256x4096_S4096x64_S256x64_1_0_0_1_n_n none p v (constant S256x64 .f32 0x00000000#32) (ix2 r e)
      = ∑ m : Fin 4096, p (ix2 r m) * v (ix2 m e) := by
  simp only [matmul]
  rw [Ideal.matmul_constant_zero_apply, ← Equiv.sum_comp (ValueIdx.contrEquiv1 dot_S256x4096_S4096x64_S256x64_1_0_0_1_n_n 4096 rfl rfl).symm]
  refine Finset.sum_congr rfl fun k _ => ?_
  have hk := ValueIdx.contrEquiv1_symm_val dot_S256x4096_S4096x64_S256x64_1_0_0_1_n_n 4096 rfl rfl k
  have el : dot_S256x4096_S4096x64_S256x64_1_0_0_1_n_n.lhsIdx (ix2 r e) ((ValueIdx.contrEquiv1 dot_S256x4096_S4096x64_S256x64_1_0_0_1_n_n 4096 rfl rfl).symm k) = ix2 r k := funext fun ax => Fin.ext (by
    match ax with
    | ⟨0, _⟩ => exact pv_lhs_0 _ _
    | ⟨1, _⟩ => exact (pv_lhs_1 _ _).trans hk)
  have er : dot_S256x4096_S4096x64_S256x64_1_0_0_1_n_n.rhsIdx (ix2 r e) ((ValueIdx.contrEquiv1 dot_S256x4096_S4096x64_S256x64_1_0_0_1_n_n 4096 rfl rfl).symm k) = ix2 k e := funext fun ax => Fin.ext (by
    match ax with
    | ⟨0, _⟩ => exact (pv_rhs_0 _ _).trans hk
    | ⟨1, _⟩ => exact pv_rhs_1 _ _)
  rw [el, er]

/-! ## Row reductions, keepdims columns and their broadcasts, read at an index -/

/-- The index of row r with column m put back. -/
theorem lift_row (h : S256x4096.Reduces [1] S256) (r : Fin 256) (m : Fin 4096) : h.lift (ix1 r) m = ix2 r m :=
  funext fun ax => Fin.ext (by
    match ax with
    | ⟨0, _⟩ => rfl
    | ⟨1, _⟩ => rfl)

/-- The maximum over a row, from -∞. -/
theorem rowMax_apply (s : FVec Ideal S256x4096 .f32) (h : S256x4096.Reduces [1] S256) (hφ : FKind.Formats .f32)
    (hacc : @Eq (BitVec (FTy.bits .f32)) 0xFF800000#32 0xFF800000#32) (r : Fin 256) :
    multiReduction .maximumf [1] S256 s 0xFF800000#32 h hφ hacc (ix1 r)
      = (Finset.univ : Finset (Fin 4096)).fold max negInf (fun m => s (ix2 r m)) := by
  refine (Ideal.multiReduction_maximumf_single s 0xFF800000#32 h hφ hacc (ix1 r)).trans ?_
  have hs : (s ∘ h.lift (ix1 r)) = fun m : Fin 4096 => s (ix2 r m) := funext fun m => congrArg s (lift_row h r m)
  rw [hs]
  rfl

/-- The sum over a row, from zero. -/
theorem rowSum_apply (s : FVec Ideal S256x4096 .f32) (h : S256x4096.Reduces [1] S256) (hφ : FKind.Formats .f32)
    (hacc : @Eq (BitVec (FTy.bits .f32)) 0x00000000#32 0x00000000#32) (r : Fin 256) :
    multiReduction .add [1] S256 s 0x00000000#32 h hφ hacc (ix1 r) = ∑ m : Fin 4096, s (ix2 r m) := by
  refine (Ideal.multiReduction_add_single s 0x00000000#32 h hφ hacc (ix1 r)).trans ?_
  exact Finset.sum_congr rfl fun m _ => congrArg s (lift_row h r m)

/-- A vector of 256 cast to a [256, 1] column reads, at (r, z), the vector at r. -/
theorem column_apply {α : Type} (x : S256.Idx → α) (h : S256.ShapeCasts S256x1) (r : Fin 256) (z : Fin 1) :
    shapeCast S256x1 x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A [256, 1] column broadcast along 4096 columns reads, at (r, m), the column at r. -/
theorem bcast4096_apply {α : Type} (x : S256x1.Idx → α) (h : S256x1.Broadcasts S256x4096) (r : Fin 256) (m : Fin 4096) :
    broadcastTo S256x4096 x h (ix2 r m) = x (ix2 r (0 : Fin 1)) := by
  refine broadcastTo_apply x h (ix2 r m) (ix2 r (0 : Fin 1)) fun ax => ?_
  match ax with
  | ⟨0, _⟩ => rfl
  | ⟨1, _⟩ => rfl

/-- A [256, 1] column broadcast along 64 columns reads, at (r, e), the column at r. -/
theorem bcast64_apply {α : Type} (x : S256x1.Idx → α) (h : S256x1.Broadcasts S256x64) (r : Fin 256) (e : Fin 64) :
    broadcastTo S256x64 x h (ix2 r e) = x (ix2 r (0 : Fin 1)) := by
  refine broadcastTo_apply x h (ix2 r e) (ix2 r (0 : Fin 1)) fun ax => ?_
  match ax with
  | ⟨0, _⟩ => rfl
  | ⟨1, _⟩ => rfl

/-! ## The payload at an index -/

theorem exp_apply {s : Shape} {φ : FTy} (a : FVec Ideal s φ) (i : s.Idx) : exp a i = Ideal.exp (a i) := rfl

/-- The kernel's payload at (u, r, e) is the row form of attention: row r of the loaded q block against the loaded k and
    v blocks, at channel e. -/
theorem pay_apply (x0 : FVec Ideal S1x256x64 .bf16) (x2 x4 : FVec Ideal S1x4096x64 .bf16) (u : Fin 1) (r : Fin 256) (e : Fin 64) :
    k1_pay1 (F := Ideal) x0 x2 x4 (ix3 u r e)
      = attnRow (fun e => x0 (ix3 (0 : Fin 1) r e)) (fun m e => x2 (ix3 (0 : Fin 1) m e)) (fun m e => x4 (ix3 (0 : Fin 1) m e)) e := by
  unfold k1_pay1
  refine (shapeCast_ab_1ab_apply _ _ u r e).trans ?_
  simp only [truncf_apply, divf_apply, pv_apply, bcast64_apply, column_apply, exp_apply, subf_apply, mulf_apply,
    broadcast_apply, bcast4096_apply, qk_apply, shapeCast_1ab_ab_apply]
  rw [rowSum_apply]
  simp only [exp_apply, subf_apply, mulf_apply, broadcast_apply, bcast4096_apply, column_apply, qk_apply,
    shapeCast_1ab_ab_apply]
  rw [rowMax_apply]
  simp only [mulf_apply, broadcast_apply, qk_apply, shapeCast_1ab_ab_apply]
  rfl

/-! ## From blocks to the array -/

theorem attnRow_congr {q q' : Fin 64 → EReal} {k k' v v' : Fin 4096 → Fin 64 → EReal} (hq : q = q') (hk : k = k')
    (hv : v = v') (e : Fin 64) : attnRow q k v e = attnRow q' k' v' e := by
  subst hq hk hv; rfl

/-- Attention of the merged (batch, head) g at (n, e), read off three [16, 4096, 64] arrays. -/
def attnAt (aq ak av : S16x4096x64.Idx → EReal) (g : Fin 16) (n : Fin 4096) (e : Fin 64) : EReal :=
  attnRow (fun e' => aq (ix3 g n e')) (fun m e' => ak (ix3 g m e')) (fun m e' => av (ix3 g m e')) e

/-- What the output array ends holding, index by index. -/
def attnArr (aq ak av : S16x4096x64.Idx → EReal) : S16x4096x64.Idx → EReal :=
  fun i => attnAt aq ak av (i 0) (i 1) (i 2)

theorem attnArr_ix3 (aq ak av : S16x4096x64.Idx → EReal) (g : Fin 16) (n : Fin 4096) (e : Fin 64) :
    attnArr aq ak av (ix3 g n e) = attnAt aq ak av g n e := rfl

theorem zero_offsets : (![0, 0, 0] : Fin 3 → Nat) = fun _ => 0 := funext fun a => by fin_cases a <;> rfl

/-- The index maps, decided over the grid: q's block moves with the output's, k's and v's follow its first block index
    only and are whole along the others, and the output's block indices stay in their ranges. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 15
    ∧ win1_3.index t (1 : Fin 3) ≤ 15
    ∧ win1_3.index t (2 : Fin 3) = 0 :=
  (by decide +kernel : ∀ t : Fin grid1.N, _)

/-- Every block of the output array is some point's. -/
theorem idx_onto : ∀ (q0 : Fin 16) (q1 : Fin 16), ∃ t : Fin cfg1.N, win1_3.index t = ![q0.val, q1.val, 0] :=
  (by decide +kernel : ∀ (q0 : Fin 16) (q1 : Fin 16), ∃ t : Fin grid1.N, win1_3.index t = ![q0.val, q1.val, 0])

/-- An index of the array is in point t's block iff each coordinate is in the block's range on its axis. -/
theorem mem_blk (t : Fin cfg1.N) (i : S16x4096x64.Idx) :
    i ∈ ((cfg1.win 3).blk t).view.set ↔ ∀ a : Fin 3, win1_3.index t a * S1x256x64.size a ≤ (i a).val ∧ (i a).val < win1_3.index t a * S1x256x64.size a + S1x256x64.size a := by
  show i ∈ ((View.whole main_v8).slice (win1_3.rect t)).set ↔ _
  rw [View.set_slice_whole, Rect.mem_set_unit]
  exact Iff.rfl

/-- The output's blocks cover the array: index (g, n, e) is in the block of the point with block index (g, n / 256, 0). -/
theorem cover (i : S16x4096x64.Idx) :
    ∃ t : Fin cfg1.N, (cfg1.win 3).flush t = true ∧ i ∈ ((cfg1.win 3).blk t).view.set := by
  have hi0 : (i 0).val < 16 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 64 ≤ (i 2).val ∧ (i 2).val < win1_3.index t (2 : Fin 3) * 64 + 64; omega

section
variable (V : (c : Dev nD) → (b : Ref sig .tc) → Buf (Elt Ideal) ((c : Thread nD τ).loc b))

abbrev aQ (c : Dev nD) : S16x4096x64.Idx → EReal := V c main_v5
abbrev aK (c : Dev nD) : S16x4096x64.Idx → EReal := V c main_v6
abbrev aV (c : Dev nD) : S16x4096x64.Idx → EReal := V c main_v7

/-- What point t writes back is block t of the attention of the three arrays as the region finds them. -/
theorem flushed_eq (c : Dev nD) (t : Fin cfg1.N) :
    (dat1 V c).flushed 3 t = ((cfg1.win 3).blk t).view.read (Elt Ideal) (attnArr (aQ V c) (aK V c) (aV V c)) := by
  show (cfg1.win 3).cut (grid1.coords t) ((dat1 V c).after 3 t) = _
  rw [after1_3]
  unfold out1_3
  rw [View.canon_unit_zero zero_offsets]
  simp only [View.ld_unit_zero (S := S1x256x64) zero_offsets, View.ld_unit_zero (S := S1x4096x64) zero_offsets]
  funext j
  obtain ⟨u, r, e, rfl⟩ : ∃ (u : Fin 1) (r : Fin 256) (e : Fin 64), j = ix3 u r e := ⟨j 0, j 1, j 2, eq_ix3 j⟩
  obtain ⟨f00, f01, f02, f10, f11, f12, f20, f21, f22, b0, b1, b2⟩ := idx_facts t
  have hu : u.val = 0 := by omega
  have hr : r.val < 256 := r.isLt
  have hg : win1_3.index t (0 : Fin 3) * 1 + 1 * u.val < 16 := by omega
  have hn : win1_3.index t (1 : Fin 3) * 256 + 1 * r.val < 4096 := by omega
  have hemb : ((cfg1.win 3).blk t).view.emb (ix3 u r e)
      = ix3 (⟨win1_3.index t (0 : Fin 3) * 1 + 1 * u.val, hg⟩ : Fin 16) (⟨win1_3.index t (1 : Fin 3) * 256 + 1 * r.val, hn⟩ : Fin 4096) e := by
    funext a; apply Fin.ext
    match a with
    | ⟨0, _⟩ => rfl
    | ⟨1, _⟩ => rfl
    | ⟨2, _⟩ => show win1_3.index t (2 : Fin 3) * 64 + 1 * e.val = e.val; omega
  have hq : (fun e' : Fin 64 => iblk1 V c 0 t (ix3 (0 : Fin 1) r e'))
      = fun e' : Fin 64 => aQ V c (ix3 (⟨win1_3.index t (0 : Fin 3) * 1 + 1 * u.val, hg⟩ : Fin 16) (⟨win1_3.index t (1 : Fin 3) * 256 + 1 * r.val, hn⟩ : Fin 4096) e') := funext fun e' => by
    show V c main_v5 (((cfg1.win 0).blk t).view.emb (ix3 (0 : Fin 1) r e')) = V c main_v5 _
    refine congrArg (V c main_v5) (funext fun a => Fin.ext ?_)
    match a with
    | ⟨0, _⟩ => show win1_0.index t (0 : Fin 3) * 1 + 1 * 0 = win1_3.index t (0 : Fin 3) * 1 + 1 * u.val; omega
    | ⟨1, _⟩ => show win1_0.index t (1 : Fin 3) * 256 + 1 * r.val = win1_3.index t (1 : Fin 3) * 256 + 1 * r.val; omega
    | ⟨2, _⟩ => show win1_0.index t (2 : Fin 3) * 64 + 1 * e'.val = e'.val; omega
  have hk : (fun (m : Fin 4096) (e' : Fin 64) => iblk1 V c 1 t (ix3 (0 : Fin 1) m e'))
      = fun (m : Fin 4096) (e' : Fin 64) => aK V c (ix3 (⟨win1_3.index t (0 : Fin 3) * 1 + 1 * u.val, hg⟩ : Fin 16) m e') := funext fun m => funext fun e' => by
    show V c main_v6 (((cfg1.win 1).blk t).view.emb (ix3 (0 : Fin 1) m e')) = V c main_v6 _
    refine congrArg (V c main_v6) (funext fun a => Fin.ext ?_)
    match a with
    | ⟨0, _⟩ => show win1_1.index t (0 : Fin 3) * 1 + 1 * 0 = win1_3.index t (0 : Fin 3) * 1 + 1 * u.val; omega
    | ⟨1, _⟩ => show win1_1.index t (1 : Fin 3) * 4096 + 1 * m.val = m.val; omega
    | ⟨2, _⟩ => show win1_1.index t (2 : Fin 3) * 64 + 1 * e'.val = e'.val; omega
  have hv : (fun (m : Fin 4096) (e' : Fin 64) => iblk1 V c 2 t (ix3 (0 : Fin 1) m e'))
      = fun (m : Fin 4096) (e' : Fin 64) => aV V c (ix3 (⟨win1_3.index t (0 : Fin 3) * 1 + 1 * u.val, hg⟩ : Fin 16) m e') := funext fun m => funext fun e' => by
    show V c main_v7 (((cfg1.win 2).blk t).view.emb (ix3 (0 : Fin 1) m e')) = V c main_v7 _
    refine congrArg (V c main_v7) (funext fun a => Fin.ext ?_)
    match a with
    | ⟨0, _⟩ => show win1_2.index t (0 : Fin 3) * 1 + 1 * 0 = win1_3.index t (0 : Fin 3) * 1 + 1 * u.val; omega
    | ⟨1, _⟩ => show win1_2.index t (1 : Fin 3) * 4096 + 1 * m.val = m.val; omega
    | ⟨2, _⟩ => show win1_2.index t (2 : Fin 3) * 64 + 1 * e'.val = e'.val; omega
  show k1_pay1 (F := Ideal) (iblk1 V c 0 t) (iblk1 V c 1 t) (iblk1 V c 2 t) (ix3 u r e)
    = attnArr (aQ V c) (aK V c) (aV V c) (((cfg1.win 3).blk t).view.emb (ix3 u r e))
  rw [hemb, attnArr_ix3]
  exact (pay_apply _ _ _ u r e).trans (attnRow_congr hq hk hv e)

/-- The output array after the region, index by index: late-normalised attention of the merged (batch, head) g's slices of
    the three input arrays. -/
theorem arr_o (c : Dev nD) (g : Fin 16) (n : Fin 4096) (e : Fin 64) :
    ((dat1 V c).arrAt 3 cfg1.N : S16x4096x64.Idx → EReal) (ValueIdx.ix3 g n e)
      = attnLate (fun n e => aQ V c (ValueIdx.ix3 g n e)) (fun n e => aK V c (ValueIdx.ix3 g n e))
          (fun n e => aV V c (ValueIdx.ix3 g n e)) n e := by
  have h := (dat1 V c).arrAt_eq_of_cover 3 (attnArr (aQ V c) (aK V c) (aV V c)) (fun t _ => flushed_eq V c t) cover
  exact (congrFun h (ix3 g n e)).trans rfl

end

end Cert.KernelIdeal.R1

end
-- ==== Proof.Region2.lean ====
/-
  Region 2, the output projection: what its result array holds, index by index, over the extended reals.
  The grid's 8 points (b, i) each take rows 1024·i … 1024·i + 1023 of batch b of the attention output (all 8 heads,
  64 channels each), the whole transposed weights [512, 512] (row = input channel h·64 + e, column = output
  channel d) and the bias row, and leave in block (b, i) of the result the eight per-head products
  ∑ e, o[b, h, n, e] · Wᵀ[h·64 + e, d] added in the order h = 0, 1, …, 7 and then the bias: Cert.Attn.projChain.
  The blocks tile the result array, so the array ends holding that function at every (b, n, d).
-/
import proofs.«406941_j3049426780465_3_alg».proof.Proof.Gen.KernelIdeal.Frame
import proofs.«406941_j3049426780465_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Cert.KernelIdeal Cert.KernelIdeal.Gen Idealize.ShloMosaic Idealize.ShloMosaic.TcCoe Idealize.SL.Sem Cert.Attn
open Idealize.ShloMosaic.Pipeline (Dat)

/-! ## One head's product read at an index -/

/-! The dimension numbers of every per-head product contract the left operand's axis 1 with the right operand's
    axis 0: at output index (r, d) and contraction position k the operands are read at (r, k) and (k, d). -/

theorem lhs_dotH_0 (i : S1024x512.Idx) (q : dot_S1024x64_S64x512_S1024x512_1_0_0_1_n_n.contr.Idx) :
    (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
theorem lhs_dotH_1 (i : S1024x512.Idx) (q : dot_S1024x64_S64x512_S1024x512_1_0_0_1_n_n.contr.Idx) :
    (dot_S1024x64_S64x512_S1024x512_1_0_0_1_n_n.lhsIdx i q 1).val = (q ⟨0, by decide⟩).val :=
  dot_S1024x64_S64x512_S1024x512_1_0_0_1_n_n.lhsIdx_val_of_single rfl i q
theorem rhs_dotH_0 (i : S1024x512.Idx) (q : dot_S1024x64_S64x512_S1024x512_1_0_0_1_n_n.contr.Idx) :
    (dot_S1024x64_S64x512_S1024x512_1_0_0_1_n_n.rhsIdx i q 0).val = (q ⟨0, by decide⟩).val :=
  dot_S1024x64_S64x512_S1024x512_1_0_0_1_n_n.rhsIdx_val_of_single rfl i q
theorem rhs_dotH_1 (i : S1024x512.Idx) (q : dot_S1024x64_S64x512_S1024x512_1_0_0_1_n_n.contr.Idx) :
    (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

/-- A [1024,64] × [64,512] product into the zero accumulator, at (r, d): the sum over the 64 contracted channels. -/
theorem mm_apply (A : FVec Ideal S1024x64 .bf16) (B : FVec Ideal S64x512 .bf16) (r : Fin 1024) (d : Fin 512) :
    matmul dot_S1024x64_S64x512_S1024x512_1_0_0_1_n_n none A B (constant (F := Ideal) S1024x512 .f32 0x00000000#32) (ValueIdx.ix2 r d)
      = ∑ e : Fin 64, A (ValueIdx.ix2 r e) * B (ValueIdx.ix2 e d) := by
  simp only [matmul]
  rw [Ideal.matmul_constant_zero_apply, ← Equiv.sum_comp (ValueIdx.contrEquiv1 dot_S1024x64_S64x512_S1024x512_1_0_0_1_n_n 64 rfl rfl).symm]
  refine Finset.sum_congr rfl fun k _ => ?_
  have hk := ValueIdx.contrEquiv1_symm_val dot_S1024x64_S64x512_S1024x512_1_0_0_1_n_n 64 rfl rfl k
  have el : dot_S1024x64_S64x512_S1024x512_1_0_0_1_n_n.lhsIdx (ValueIdx.ix2 r d) ((ValueIdx.contrEquiv1 dot_S1024x64_S64x512_S1024x512_1_0_0_1_n_n 64 rfl rfl).symm k) = ValueIdx.ix2 r k := funext fun a => Fin.ext (by
    match a with
    | ⟨0, _⟩ => exact lhs_dotH_0 _ _
    | ⟨1, _⟩ => exact (lhs_dotH_1 _ _).trans hk)
  have er : dot_S1024x64_S64x512_S1024x512_1_0_0_1_n_n.rhsIdx (ValueIdx.ix2 r d) ((ValueIdx.contrEquiv1 dot_S1024x64_S64x512_S1024x512_1_0_0_1_n_n 64 rfl rfl).symm k) = ValueIdx.ix2 k d := funext fun a => Fin.ext (by
    match a with
    | ⟨0, _⟩ => exact (rhs_dotH_0 _ _).trans hk
    | ⟨1, _⟩ => exact rhs_dotH_1 _ _)
  rw [el, er]

/-! ## The body's slices read at an index -/

theorem hz3 : (![0, 0, 0] : Fin 3 → Nat) = fun _ => 0 := funext fun a => by fin_cases a <;> rfl

/-- Head h's [1,1,1024,64] slice of the attention block, flattened to [1024,64], read at (r, e): the block at (0, h, r, e). -/
theorem head_slice_apply (x0 : Vec Ideal S1x8x1024x64 .bf16) (hn : Nat) (hh : hn < 8)
    (inb : ∀ a, (![0, hn, 0, 0] : Fin 4 → Nat) a + S1x1x1024x64.size a ≤ S1x8x1024x64.size a) (r : Fin 1024) (e : Fin 64) :
    shapeCast S1024x64 (View.ld (Val := Elt Ideal) (e' := .bf16) x0 (Rect.unit (s := S1x8x1024x64) ![0, hn, 0, 0] S1x1x1024x64.size inb)) shapeCasts_S1x1x1024x64_S1024x64 (ValueIdx.ix2 r e)
      = x0 (ValueIdx.ix4 (0 : Fin 1) (⟨hn, hh⟩ : Fin 8) r e) := by
  refine (shapeCast_apply _ shapeCasts_S1x1x1024x64_S1024x64 (ValueIdx.ix2 r e) (ValueIdx.ix4 (0 : Fin 1) (0 : Fin 1) r e) ?_).trans ?_
  · rw [Shape.rowMajor_val_four, Shape.rowMajor_val_two]
    show ((0 * 1 + 0) * 1024 + r.val) * 64 + e.val = r.val * 64 + e.val
    omega
  · show x0 _ = x0 _
    refine congrArg x0 (funext fun a => Fin.ext ?_)
    match a with
    | ⟨0, _⟩ => show 0 + 1 * 0 = 0; rfl
    | ⟨1, _⟩ => show hn + 1 * 0 = hn; omega
    | ⟨2, _⟩ => show 0 + 1 * r.val = r.val; omega
    | ⟨3, _⟩ => show 0 + 1 * e.val = e.val; omega

/-- Rows 64h … 64h+63 of the transposed weights, read at (e, d): the weights at (h·64 + e, d). -/
theorem weight_slice_apply (x1 : Vec Ideal S512x512 .bf16) (o hn : Nat) (hh : hn < 8) (ho : o = hn * 64)
    (inb : ∀ a, (![o, 0] : Fin 2 → Nat) a + S64x512.size a ≤ S512x512.size a) (e : Fin 64) (d : Fin 512) :
    shapeCast S64x512 (View.ld (Val := Elt Ideal) (e' := .bf16) x1 (Rect.unit (s := S512x512) ![o, 0] S64x512.size inb)) shapeCasts_S64x512_S64x512 (ValueIdx.ix2 e d)
      = x1 (ValueIdx.ix2 (hch ⟨hn, hh⟩ e) d) := by
  refine (shapeCast_apply _ shapeCasts_S64x512_S64x512 (ValueIdx.ix2 e d) (ValueIdx.ix2 e d) rfl).trans ?_
  show x1 _ = x1 _
  refine congrArg x1 (funext fun a => Fin.ext ?_)
  match a with
  | ⟨0, _⟩ => show o + 1 * e.val = hn * 64 + e.val; omega
  | ⟨1, _⟩ => show 0 + 1 * d.val = d.val; omega

/-- The bias row broadcast over the 1024 rows, read at (r, d): the bias at d. -/
theorem bias_apply (x2 : Vec Ideal S1x512 .f32) (r : Fin 1024) (d : Fin 512) :
    broadcastTo S1024x512 (shapeCast S1x512 (View.ld (Val := Elt Ideal) (e' := .f32) x2 r2_16) shapeCasts_S1x512_S1x512) broadcasts_S1x512_S1024x512 (ValueIdx.ix2 r d)
      = x2 (ValueIdx.ix2 (0 : Fin 1) d) := by
  refine (ValueIdx.broadcastTo_1b_ab_apply _ broadcasts_S1x512_S1024x512 r d).trans ?_
  refine (shapeCast_apply _ shapeCasts_S1x512_S1x512 (ValueIdx.ix2 (0 : Fin 1) d) (ValueIdx.ix2 (0 : Fin 1) d) rfl).trans ?_
  show x2 _ = x2 _
  refine congrArg x2 (funext fun a => Fin.ext ?_)
  match a with
  | ⟨0, _⟩ => show 0 + 1 * 0 = 0; rfl
  | ⟨1, _⟩ => show 0 + 1 * d.val = d.val; omega

/-! ## The body's result at an index -/

/-- One head's share of a block's result at (r, d): the 64 channels of head h of row r against rows h·64 … of the weights. -/
def headDot (x0 : Vec Ideal S1x8x1024x64 .bf16) (x1 : Vec Ideal S512x512 .bf16) (h : Fin 8) (r : Fin 1024) (d : Fin 512) : EReal :=
  ∑ e : Fin 64, x0 (ValueIdx.ix4 (0 : Fin 1) h r e) * x1 (ValueIdx.ix2 (hch h e) d)

/-- One head's product in the body, read at (r, d), is that head's share. -/
theorem head_mm_apply (x0 : Vec Ideal S1x8x1024x64 .bf16) (x1 : Vec Ideal S512x512 .bf16) (hn o : Nat) (hh : hn < 8) (ho : o = hn * 64)
    (inb0 : ∀ a, (![0, hn, 0, 0] : Fin 4 → Nat) a + S1x1x1024x64.size a ≤ S1x8x1024x64.size a)
    (inb1 : ∀ a, (![o, 0] : Fin 2 → Nat) a + S64x512.size a ≤ S512x512.size a) (r : Fin 1024) (d : Fin 512) :
    matmul (φ₁ := .bf16) (φ₂ := .bf16) dot_S1024x64_S64x512_S1024x512_1_0_0_1_n_n none
        (shapeCast S1024x64 (View.ld (Val := Elt Ideal) (e' := .bf16) x0 (Rect.unit (s := S1x8x1024x64) ![0, hn, 0, 0] S1x1x1024x64.size inb0)) shapeCasts_S1x1x1024x64_S1024x64)
        (shapeCast S64x512 (View.ld (Val := Elt Ideal) (e' := .bf16) x1 (Rect.unit (s := S512x512) ![o, 0] S64x512.size inb1)) shapeCasts_S64x512_S64x512)
        (constant (F := Ideal) S1024x512 .f32 0x00000000#32) (ValueIdx.ix2 r d)
      = headDot x0 x1 ⟨hn, hh⟩ r d := by
  rw [mm_apply]
  unfold headDot
  refine Finset.sum_congr rfl fun e _ => ?_
  rw [head_slice_apply x0 hn hh, weight_slice_apply x1 o hn hh ho]

/-- What the body stores, from the three staged blocks. -/
def body (x0 : Vec Ideal S1x8x1024x64 .bf16) (x1 : Vec Ideal S512x512 .bf16) (x2 : Vec Ideal S1x512 .f32) : Vec Ideal S1x1024x512 .f32 :=
  k2_pay1 (k2_pay2 (View.ld x0 r2_0) (View.ld x1 r2_1) (View.ld x0 r2_2) (View.ld x1 r2_3) (View.ld x0 r2_4) (View.ld x1 r2_5) (View.ld x0 r2_6) (View.ld x1 r2_7)) (k2_pay3 (View.ld x0 r2_8)) (View.ld x1 r2_9) (View.ld x0 r2_10) (View.ld x1 r2_11) (View.ld x0 r2_12) (View.ld x1 r2_13) (View.ld x0 r2_14) (View.ld x1 r2_15) (View.ld x2 r2_16)

/-- The stored block at (u, r, d): the eight heads' shares added in the body's own order, then the bias. -/
theorem body_apply (x0 : Vec Ideal S1x8x1024x64 .bf16) (x1 : Vec Ideal S512x512 .bf16) (x2 : Vec Ideal S1x512 .f32)
    (u : Fin 1) (r : Fin 1024) (d : Fin 512) :
    body x0 x1 x2 (ValueIdx.ix3 u r d)
      = (((((((headDot x0 x1 0 r d + headDot x0 x1 1 r d) + headDot x0 x1 2 r d) + headDot x0 x1 3 r d)
          + headDot x0 x1 4 r d) + headDot x0 x1 5 r d) + headDot x0 x1 6 r d) + headDot x0 x1 7 r d) + x2 (ValueIdx.ix2 (0 : Fin 1) d) := by
  unfold body
  simp only [k2_pay1, k2_pay2, k2_pay3]
  rw [ValueIdx.shapeCast_ab_1ab_apply]
  simp only [ValueIdx.addf_apply]
  rw [bias_apply]
  rw [head_mm_apply x0 x1 0 0 (by decide) rfl, head_mm_apply x0 x1 1 64 (by decide) rfl, head_mm_apply x0 x1 2 128 (by decide) rfl,
    head_mm_apply x0 x1 3 192 (by decide) rfl, head_mm_apply x0 x1 4 256 (by decide) rfl, head_mm_apply x0 x1 5 320 (by decide) rfl,
    head_mm_apply x0 x1 6 384 (by decide) rfl, head_mm_apply x0 x1 7 448 (by decide) rfl]
  rfl

/-! ## From the blocks to the array -/

variable (V : (c : Dev nD) → (b : Ref sig .tc) → Buf (Elt Ideal) ((c : Thread nD τ).loc b))

/-- The attention output, the transposed projection weights and the bias row, as the region finds them. -/
abbrev aO (c : Dev nD) : S2x8x4096x64.Idx → EReal := V c main_v9
abbrev aWp (c : Dev nD) : S512x512.Idx → EReal := V c main_v3
abbrev aB (c : Dev nD) : S1x512.Idx → EReal := V c main_v10

/-- What the result array ends holding: at (b, n, d) the chained projection of batch b's attention rows. -/
def G (c : Dev nD) : S2x4096x512.Idx → EReal := fun j =>
  projChain (fun h n e => aO V c (ValueIdx.ix4 (⟨(j 0).val, (j 0).isLt⟩ : Fin 2) h n e)) (fun d c' => aWp V c (ValueIdx.ix2 c' d))
    (fun d => aB V c (ValueIdx.ix2 (0 : Fin 1) d)) ⟨(j 1).val, (j 1).isLt⟩ ⟨(j 2).val, (j 2).isLt⟩

/-- The printed index maps, decided over the 8 grid points: the attention block moves with the result block on the
    batch and row axes and takes every head and channel; the weights and the bias are whole; the result's block
    indices stay in their ranges. -/
theorem idx_facts : ∀ t : Fin cfg2.N,
    win2_0.index t (0 : Fin 4) = win2_3.index t (0 : Fin 3) ∧ win2_0.index t (1 : Fin 4) = 0
    ∧ win2_0.index t (2 : Fin 4) = win2_3.index t (1 : Fin 3) ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) ≤ 1 ∧ win2_3.index t (1 : Fin 3) ≤ 3 ∧ win2_3.index t (2 : Fin 3) = 0 :=
  (by decide +kernel : ∀ t : Fin grid2.N, _)

/-- Every block of the result array is SOME point's. -/
theorem idx_onto : ∀ (q0 : Fin 2) (q1 : Fin 4), ∃ t : Fin cfg2.N, win2_3.index t = ![q0.val, q1.val, 0] :=
  (by decide +kernel : ∀ (q0 : Fin 2) (q1 : Fin 4), ∃ t : Fin grid2.N, win2_3.index t = ![q0.val, q1.val, 0])

/-- The attention block at point t, at (u, h, r, e): the array at (b, h, n, e), b the result's batch block and n its row. -/
theorem read_o (c : Dev nD) (t : Fin cfg2.N) (u : Fin 1) (h : Fin 8) (r : Fin 1024) (e : Fin 64) (b : Fin 2) (n : Fin 4096)
    (hb : b.val = win2_3.index t (0 : Fin 3) * 1 + 1 * u.val) (hn : n.val = win2_3.index t (1 : Fin 3) * 1024 + 1 * r.val) :
    (iblk2 V c 0 t : S1x8x1024x64.Idx → EReal) (ValueIdx.ix4 u h r e) = aO V c (ValueIdx.ix4 b h n e) := by
  obtain ⟨f0, f1, f2, f3, -⟩ := idx_facts t
  show aO V c (((cfg2.win 0).blk t).view.emb (ValueIdx.ix4 u h r e)) = aO V c (ValueIdx.ix4 b h n e)
  refine congrArg (aO V c) (funext fun a => Fin.ext ?_)
  match a with
  | ⟨0, _⟩ => show win2_0.index t (0 : Fin 4) * 1 + 1 * u.val = b.val; omega
  | ⟨1, _⟩ => show win2_0.index t (1 : Fin 4) * 8 + 1 * h.val = h.val; omega
  | ⟨2, _⟩ => show win2_0.index t (2 : Fin 4) * 1024 + 1 * r.val = n.val; omega
  | ⟨3, _⟩ => show win2_0.index t (3 : Fin 4) * 64 + 1 * e.val = e.val; omega

/-- The weights' block is the whole array. -/
theorem read_w (c : Dev nD) (t : Fin cfg2.N) (k : Fin 512) (d : Fin 512) :
    (iblk2 V c 1 t : S512x512.Idx → EReal) (ValueIdx.ix2 k d) = aWp V c (ValueIdx.ix2 k d) := by
  obtain ⟨-, -, -, -, f4, f5, -⟩ := idx_facts t
  show aWp V c (((cfg2.win 1).blk t).view.emb (ValueIdx.ix2 k d)) = aWp V c (ValueIdx.ix2 k d)
  refine congrArg (aWp V c) (funext fun a => Fin.ext ?_)
  match a with
  | ⟨0, _⟩ => show win2_1.index t (0 : Fin 2) * 512 + 1 * k.val = k.val; omega
  | ⟨1, _⟩ => show win2_1.index t (1 : Fin 2) * 512 + 1 * d.val = d.val; omega

/-- The bias's block is the whole row. -/
theorem read_b (c : Dev nD) (t : Fin cfg2.N) (u : Fin 1) (d : Fin 512) :
    (iblk2 V c 2 t : S1x512.Idx → EReal) (ValueIdx.ix2 u d) = aB V c (ValueIdx.ix2 (0 : Fin 1) d) := by
  obtain ⟨-, -, -, -, -, -, f6, f7, -⟩ := idx_facts t
  show aB V c (((cfg2.win 2).blk t).view.emb (ValueIdx.ix2 u d)) = aB V c (ValueIdx.ix2 (0 : Fin 1) d)
  refine congrArg (aB V c) (funext fun a => Fin.ext ?_)
  match a with
  | ⟨0, _⟩ => show win2_2.index t (0 : Fin 2) * 1 + 1 * u.val = 0; omega
  | ⟨1, _⟩ => show win2_2.index t (1 : Fin 2) * 512 + 1 * d.val = d.val; omega

/-- G at an index whose coordinates are (b, n, d). -/
theorem G_apply (c : Dev nD) (E : S2x4096x512.Idx) (b : Fin 2) (n : Fin 4096) (d : Fin 512)
    (h0 : (E 0).val = b.val) (h1 : (E 1).val = n.val) (h2 : (E 2).val = d.val) :
    G V c E = projChain (fun h n e => aO V c (ValueIdx.ix4 b h n e)) (fun d c' => aWp V c (ValueIdx.ix2 c' d))
      (fun d => aB V c (ValueIdx.ix2 (0 : Fin 1) d)) n d := by
  have hE : E = ValueIdx.ix3 b n d := funext fun a => Fin.ext (match a with | ⟨0, _⟩ => h0 | ⟨1, _⟩ => h1 | ⟨2, _⟩ => h2)
  subst hE
  rfl

/-- One head's share over the staged blocks at point t is that head's term over the arrays, at the block's batch and row. -/
theorem headDot_eq (c : Dev nD) (t : Fin cfg2.N) (h : Fin 8) (r : Fin 1024) (d : Fin 512) (b : Fin 2) (n : Fin 4096)
    (hb : b.val = win2_3.index t (0 : Fin 3) * 1 + 1 * (0 : Fin 1).val) (hn : n.val = win2_3.index t (1 : Fin 3) * 1024 + 1 * r.val) :
    headDot (iblk2 V c 0 t) (iblk2 V c 1 t) h r d
      = headTerm (fun h n e => aO V c (ValueIdx.ix4 b h n e)) (fun d c' => aWp V c (ValueIdx.ix2 c' d)) h n d := by
  unfold headDot headTerm
  refine Finset.sum_congr rfl fun e _ => ?_
  exact congrArg₂ (· * ·) (read_o V c t 0 h r e b n hb hn) (read_w V c t (hch h e) d)

/-- WHAT POINT t WRITES BACK is block t of G. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz3]
  refine funext fun (j : S1x1024x512.Idx) => ?_
  obtain ⟨u, r, d, rfl⟩ : ∃ (u : Fin 1) (r : Fin 1024) (d : Fin 512), j = ValueIdx.ix3 u r d := ⟨j 0, j 1, j 2, ValueIdx.eq_ix3 j⟩
  show body (iblk2 V c 0 t) (iblk2 V c 1 t) (iblk2 V c 2 t) (ValueIdx.ix3 u r d) = G V c (((cfg2.win 3).blk t).view.emb (ValueIdx.ix3 u r d))
  refine (body_apply _ _ _ u r d).trans ?_
  obtain ⟨-, -, -, -, -, -, -, -, g0, g1, g2⟩ := idx_facts t
  have hu : u.val = 0 := by omega
  have hb : (⟨win2_3.index t (0 : Fin 3), by omega⟩ : Fin 2).val = win2_3.index t (0 : Fin 3) * 1 + 1 * (0 : Fin 1).val := by
    show win2_3.index t (0 : Fin 3) = win2_3.index t (0 : Fin 3) * 1 + 1 * 0; omega
  have hn : (⟨win2_3.index t (1 : Fin 3) * 1024 + r.val, by omega⟩ : Fin 4096).val = win2_3.index t (1 : Fin 3) * 1024 + 1 * r.val := by
    show win2_3.index t (1 : Fin 3) * 1024 + r.val = _; omega
  refine Eq.trans ?_ (G_apply V c _ ⟨win2_3.index t (0 : Fin 3), by omega⟩ ⟨win2_3.index t (1 : Fin 3) * 1024 + r.val, by omega⟩ d
    (by show win2_3.index t (0 : Fin 3) * 1 + 1 * u.val = win2_3.index t (0 : Fin 3); omega)
    (by show win2_3.index t (1 : Fin 3) * 1024 + 1 * r.val = win2_3.index t (1 : Fin 3) * 1024 + r.val; omega)
    (by show win2_3.index t (2 : Fin 3) * 512 + 1 * d.val = d.val; omega)).symm
  unfold projChain
  rw [headDot_eq V c t 0 r d _ _ hb hn, headDot_eq V c t 1 r d _ _ hb hn, headDot_eq V c t 2 r d _ _ hb hn, headDot_eq V c t 3 r d _ _ hb hn,
    headDot_eq V c t 4 r d _ _ hb hn, headDot_eq V c t 5 r d _ _ hb hn, headDot_eq V c t 6 r d _ _ hb hn, headDot_eq V c t 7 r d _ _ hb hn,
    read_b V c t 0 d]

/-- An index of the result array is in point t's block iff each coordinate is in the block's range on its axis. -/
theorem mem_blk (t : Fin cfg2.N) (i : S2x4096x512.Idx) :
    i ∈ ((cfg2.win 3).blk t).view.set ↔ ∀ a : Fin 3, win2_3.index t a * S1x1024x512.size a ≤ (i a).val ∧ (i a).val < win2_3.index t a * S1x1024x512.size a + S1x1024x512.size a := by
  show i ∈ ((View.whole main_v11).slice (win2_3.rect t)).set ↔ _
  rw [View.set_slice_whole, Rect.mem_set_unit]
  exact Iff.rfl

/-- The blocks tile the result array: (b, n, d) is in the block of the point whose block index is (b, n / 1024, 0). -/
theorem cover (i : S2x4096x512.Idx) : ∃ t : Fin cfg2.N, (cfg2.win 3).flush t = true ∧ i ∈ ((cfg2.win 3).blk t).view.set := by
  have hi0 : (i 0).val < 2 := (i 0).isLt
  have hi1 : (i 1).val < 4096 := (i 1).isLt
  have hi2 : (i 2).val < 512 := (i 2).isLt
  obtain ⟨t, ht⟩ := idx_onto ⟨(i 0).val, by omega⟩ ⟨(i 1).val / 1024, by omega⟩
  have q0 : win2_3.index t (0 : Fin 3) = (i 0).val := congrFun ht 0
  have q1 : win2_3.index t (1 : Fin 3) = (i 1).val / 1024 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 512 ≤ (i 2).val ∧ (i 2).val < win2_3.index t (2 : Fin 3) * 512 + 512; omega

/-- THE RESULT ARRAY after the region is G. -/
theorem arr_eq (c : Dev nD) : (dat2 V c).arrAt 3 cfg2.N = G V c :=
  (dat2 V c).arrAt_eq_of_cover 3 (G V c) (fun t _ => flushed_eq V c t) cover

/-- The result array at (b, n, d): the chained output projection of batch b's attention rows at (n, d), with the
    transposed weights read at (input channel, output channel) and the bias row at d. -/
theorem arr_out (c : Dev nD) (b : Fin 2) (n : Fin 4096) (d : Fin 512) :
    ((dat2 V c).arrAt 3 cfg2.N : S2x4096x512.Idx → EReal) (ValueIdx.ix3 b n d)
      = projChain (fun h n e => aO V c (ValueIdx.ix4 b h n e)) (fun d c' => aWp V c (ValueIdx.ix2 c' d))
          (fun d => aB V c (ValueIdx.ix2 0 d)) n d := by
  rw [arr_eq V c]
  rfl

end Cert.KernelIdeal.R2

end
-- ==== Proof.lean ====
/-
  Dense multi-head self-attention in three kernels (a fused q/k/v projection that writes each head's
  slice, attention with the whole key and value rows resident and ONE softmax per query tile, an output
  projection that adds eight per-head products) against the reference that materialises the softmax of every score row and multiplies it with v.

  Over the extended reals the two programs differ in two arrangements only. The kernel divides the
  product (exp(s - max) · v) by the row sum l afterwards, the reference divides the probabilities first:
  (Σ_m p_m v_m) / l = Σ_m (p_m / l) v_m holds because l is a positive REAL — it is a sum of exponentials
  of real numbers, the scores being real as soon as x and w_qkv are finite, which is what the
  precondition says — and multiplication by a nonnegative real distributes over every sum of extended
  reals (v itself may be anything). And the kernel adds eight 64-term head sums in a chain where the
  reference takes one 512-term sum: the same sum regrouped, no finiteness needed. The scale 1/8, the
  -∞ the maxima start from and the zero the sums start from are the same words on both sides; a change
  of float format is the identity here.

  The kernel program's frames are the generated ones; its value is read off the frame's run region by
  region (each region's output array as a function of the arrays it reads, through the blocks its grid
  points write back) and threaded through the host's reshapes and transposes; the reference's value is
  its generated run read operation by operation.
-/
import proofs.«406941_j3049426780465_3_alg».proof.Defs
import proofs.«406941_j3049426780465_3_alg».proof.Proof.Gen.Kernel
import proofs.«406941_j3049426780465_3_alg».proof.Proof.Gen.Kernel.Frame
import proofs.«406941_j3049426780465_3_alg».proof.Proof.Gen.KernelIdeal
import proofs.«406941_j3049426780465_3_alg».proof.Proof.Gen.KernelIdeal.Frame
import proofs.«406941_j3049426780465_3_alg».proof.Proof.Gen.ReferenceIdeal
import proofs.«406941_j3049426780465_3_alg».proof.Proof.Gen.ReferenceIdeal.Run
import proofs.«406941_j3049426780465_3_alg».proof.Proof.Gen.ReferenceIdeal.Read
import proofs.«406941_j3049426780465_3_alg».proof.Proof.Gen.Pre_finite_inputs
import proofs.«406941_j3049426780465_3_alg».proof.Proof.Spec
import proofs.«406941_j3049426780465_3_alg».proof.Proof.Algebra
import proofs.«406941_j3049426780465_3_alg».proof.Proof.Finite
import proofs.«406941_j3049426780465_3_alg».proof.Proof.RefValue
import proofs.«406941_j3049426780465_3_alg».proof.Proof.KernelRun
import proofs.«406941_j3049426780465_3_alg».proof.Proof.KernelValue
import proofs.«406941_j3049426780465_3_alg».proof.Proof.Region0
import proofs.«406941_j3049426780465_3_alg».proof.Proof.Region1
import proofs.«406941_j3049426780465_3_alg».proof.Proof.Region2
import Idealize.ShloMosaic.Adequacy
import Idealize.ShloMosaic.Init

set_option maxRecDepth 16384

noncomputable section

namespace Cert.Proof

open Idealize.ShloMosaic Idealize.ShloMosaic.TcCoe Idealize.SL.Sem Cert.Attn

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-! ## The two results are one function of the arguments -/

/-- The kernel's run ends with the result array at the late-normalised, chain-projected layer of the launched arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v11)
            = (fun i : Cert.KernelIdeal.S2x4096x512.Idx =>
                layerLate (Cert.KernelIdeal.KV.X m c) (Cert.KernelIdeal.KV.Wq m c) (Cert.KernelIdeal.KV.Wp m c) (Cert.KernelIdeal.KV.Bs m c) (i 0) (i 1) (i 2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (Cert.KernelIdeal.defs (F := Ideal)) _ _).mono (fun r h c => ⟨(h c).1.trans ?_, (h c).2⟩)
    (Cert.KernelIdeal.GenRun.run_result (F := Ideal) m ρ)
  funext i
  obtain ⟨b, n, d, rfl⟩ : ∃ (b : Fin 2) (n : Fin 4096) (d : Fin 512), i = ValueIdx.ix3 b n d := ⟨i 0, i 1, i 2, ValueIdx.eq_ix3 i⟩
  exact Cert.KernelIdeal.KV.result m ρ (Cert.KernelIdeal.R0.arr_q) (Cert.KernelIdeal.R0.arr_k) (Cert.KernelIdeal.R0.arr_v)
    (Cert.KernelIdeal.R1.arr_o) (Cert.KernelIdeal.R2.arr_out) c b n d

/-- From memories agreeing on the arguments the two programs end with equal results: the kernel's late-normalised
    chain-projected layer IS the reference's early-normalised whole-projected layer when x and w_qkv are finite. -/
theorem algebraic : Cert.algebraic_KernelIdeal_ReferenceIdeal := by
  intro m ρ m' ρ' hpre hagree
  refine ⟨_, kernel_run m ρ, ?_⟩
  refine (θ_run (Cert.ReferenceIdeal.defs (F := Ideal)) _ _).mono (fun r h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2]
  funext i
  obtain ⟨b, n, d, rfl⟩ : ∃ (b : Fin 2) (n : Fin 4096) (d : Fin 512), i = ValueIdx.ix3 b n d := ⟨i 0, i 1, i 2, ValueIdx.eq_ix3 i⟩
  rw [Cert.RefBridge.ref_value]
  have hfin := Cert.Finite.isReal_of_pre _ _ _ _ (hpre c)
  exact (layerLate_eq_layerEarly _ _ _ _ (fun b n cc => hfin.1 _) (fun d cc => hfin.2 _) b n d).symm

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
